-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S50000x32 : Shape := ⟨2, ![50000, 32]⟩
abbrev S32 : Shape := ⟨1, ![32]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32 : S_.BroadcastsInDim S32 (![] : Fin 0 → Fin S32.rank)
  reducesTo_S32_S_d0 : S32.ReducesTo [0] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : IVec S1600000 32) (main_arg1 : IVec S1600000 32) (main_arg2 : FVec F S50000x32 .f32) (main_arg3 : FVec F S32 .f32) : IVec S_ 1 :=
  let main_v0 : FVec F S50000x32 .f32 := Host.absf main_arg2
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32 .f32 := Host.absf main_arg3
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_c_2 : IVec S_ 32 := constantI S_ 32 0#32
  let main_v9 : IVec S1600000 32 := broadcastInDim S1600000 ![] bcast_S_S1600000 main_c_2
  let main_v10 : IVec S1600000 1 := cmpi .sge main_arg1 main_v9
  let main_c_3 : IVec S_ 32 := constantI S_ 32 50000#32
  let main_v11 : IVec S1600000 32 := broadcastInDim S1600000 ![] bcast_S_S1600000 main_c_3
  let main_v12 : IVec S1600000 1 := cmpi .slt main_arg1 main_v11
  let main_v13 : IVec S1600000 1 := andi main_v10 main_v12
  let main_c_4 : IVec S_ 1 := constantI S_ 1 1#1
  let main_v14 : IVec S_ 1 := (fun x v => Host.reduce IntOp.andi x v reducesTo_S1600000_S_d0 h_S_) main_v13 main_c_4
  let main_v15 : IVec S_ 1 := andi main_v8 main_v14
  main_v15
-- ==== Kernel.lean ====
abbrev S1600000 : Shape := ⟨1, ![1600000]⟩
abbrev S50000x32 : Shape := ⟨2, ![50000, 32]⟩
abbrev S32 : Shape := ⟨1, ![32]⟩
abbrev S1600000x1 : Shape := ⟨2, ![1600000, 1]⟩
abbrev S1x1600000 : Shape := ⟨2, ![1, 1600000]⟩
abbrev S1x32 : Shape := ⟨2, ![1, 32]⟩
abbrev S1600000x32 : Shape := ⟨2, ![1600000, 32]⟩
abbrev S3200x1 : Shape := ⟨2, ![3200, 1]⟩
abbrev S3200x32 : Shape := ⟨2, ![3200, 32]⟩
abbrev S2000x32 : Shape := ⟨2, ![2000, 32]⟩
abbrev S1x2000 : Shape := ⟨2, ![1, 2000]⟩
abbrev S3200x2000 : Shape := ⟨2, ![3200, 2000]⟩
abbrev S1x3200 : Shape := ⟨2, ![1, 3200]⟩
abbrev S2000x1 : Shape := ⟨2, ![2000, 1]⟩
abbrev S2000x3200 : Shape := ⟨2, ![2000, 3200]⟩

abbrev nBuf : Space → Nat
  | .hbm => 10
  | .vmem => 12
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S50000x32, .f32⟩
  | .hbm, ⟨3, _⟩ => ⟨S32, .f32⟩
  | .hbm, ⟨4, _⟩ => ⟨S50000x32, .bf16⟩
  | .hbm, ⟨5, _⟩ => ⟨S1600000x1, .i32⟩
  | .hbm, ⟨6, _⟩ => ⟨S1x1600000, .i32⟩
  | .hbm, ⟨7, _⟩ => ⟨S1x32, .f32⟩
  | .hbm, ⟨8, _⟩ => ⟨S1600000x32, .bf16⟩
  | .hbm, ⟨9, _⟩ => ⟨S50000x32, .f32⟩
  | .local _ .vmem, ⟨0, _⟩ => ⟨S3200x1, .i32⟩
  | .local _ .vmem, ⟨1, _⟩ => ⟨S3200x1, .i32⟩
  | .local _ .vmem, ⟨2, _⟩ => ⟨S50000x32, .bf16⟩
  | .local _ .vmem, ⟨3, _⟩ => ⟨S3200x32, .bf16⟩
  | .local _ .vmem, ⟨4, _⟩ => ⟨S3200x32, .bf16⟩
  | .local _ .vmem, ⟨5, _⟩ => ⟨S1x3200, .i32⟩
  | .local _ .vmem, ⟨6, _⟩ => ⟨S1x3200, .i32⟩
  | .local _ .vmem, ⟨7, _⟩ => ⟨S3200x32, .bf16⟩
  | .local _ .vmem, ⟨8, _⟩ => ⟨S3200x32, .bf16⟩
  | .local _ .vmem, ⟨9, _⟩ => ⟨S1x32, .f32⟩
  | .local _ .vmem, ⟨10, _⟩ => ⟨S50000x32, .f32⟩
  | .local _ .vmem, ⟨11, _⟩ => ⟨S50000x32, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![500], ![false]⟩

@[reducible] def k0_t1_loop : Scf.Loop 32 :=
  let c0_i32 : BitVec 32 := 0#32
  let c25_i32 : BitVec 32 := 25#32
  let v3 : BitVec 32 := Scalar.addi c0_i32 c25_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c2000_i32 : BitVec 32 := 2000#32
  let v7 : BitVec 32 := Scalar.muli arg4 c2000_i32
  v7
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c2000_i32 : BitVec 32 := 2000#32
  let v7 : BitVec 32 := Scalar.muli arg4 c2000_i32
  let v8 : BitVec 32 := v7
  let v9 : Index := Scalar.indexCast v8
  let c0_4 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50000x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3200x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

@[reducible] def k1_t1_loop : Scf.Loop 32 :=
  let c0_i32_4 : BitVec 32 := 0#32
  let c25_i32 : BitVec 32 := 25#32
  let v7 : BitVec 32 := Scalar.addi c0_i32_4 c25_i32
  let c1_i32 : BitVec 32 := 1#32
  ⟨c0_i32_4, v7, c1_i32⟩
def k1_mult1 (k1_t1 : Fin k1_t1_loop.trips) : BitVec 32 :=
  let c0_i32_8 : BitVec 32 := 0#32
  let c0_i32_4 : BitVec 32 := 0#32
  let c1_i32 : BitVec 32 := 1#32
  let arg6 : BitVec 32 := Scf.iv c0_i32_4 c1_i32 k1_t1
  let c1_i32_7 : BitVec 32 := 1#32
  let v11 : BitVec 32 := Scalar.muli arg6 c1_i32_7
  let v12 : BitVec 32 := Scalar.addi c0_i32_8 v11
  let c2000_i32 : BitVec 32 := 2000#32
  let v13 : BitVec 32 := Scalar.muli v12 c2000_i32
  v13
def k1_off1 (k1_t1 : Fin k1_t1_loop.trips) : Fin 2 → Nat :=
  let c0_i32_8 : BitVec 32 := 0#32
  let c0_i32_4 : BitVec 32 := 0#32
  let c1_i32 : BitVec 32 := 1#32
  let arg6 : BitVec 32 := Scf.iv c0_i32_4 c1_i32 k1_t1
  let c1_i32_7 : BitVec 32 := 1#32
  let v11 : BitVec 32 := Scalar.muli arg6 c1_i32_7
  let v12 : BitVec 32 := Scalar.addi c0_i32_8 v11
  let c2000_i32 : BitVec 32 := 2000#32
  let v13 : BitVec 32 := Scalar.muli v12 c2000_i32
  let v14 : BitVec 32 := v13
  let v25 : Index := Scalar.indexCast v14
  let c0_9 : Index := 0#32
  ![v25.toNat, 0]
def k1_cond2 (i : grid1.Coords) : BitVec 1 :=
  let arg0 : BitVec 32 := BitVec.ofNat 32 (i 0).val
  let c499_i32 : BitVec 32 := 499#32
  let v8 : BitVec 1 := Scalar.cmpi .eq arg0 c499_i32
  let v9 : BitVec 32 := Scalar.extui v8
  let c0_i32_6 : BitVec 32 := 0#32
  let v10 : BitVec 1 := Scalar.cmpi .ne v9 c0_i32_6
  v10

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S50000x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  bitsLt_bf16_f32 : FTy.bits .bf16 < FTy.bits .f32
  shapeCasts_S1600000_S1600000x1 : S1600000.ShapeCasts S1600000x1
  shapeCasts_S1600000_S1x1600000 : S1600000.ShapeCasts S1x1600000
  shapeCasts_S32_S1x32 : S32.ShapeCasts S1x32
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  h_S2000x32 : 0 < S2000x32.numel
  shapeCasts_S2000x32_S2000x32 : S2000x32.ShapeCasts S2000x32
  iota_S1x2000_d1_w32 : S1x2000.Iotas .tc 32 [1]
  broadcasts_S3200x1_S3200x2000 : S3200x1.Broadcasts S3200x2000
  broadcasts_S1x2000_S3200x2000 : S1x2000.Broadcasts S3200x2000
  natLt_1_32 : 1 < 32
  inb_S3200x32_S3200x32_0_0 : ∀ a, (![0, 0] : Fin 2 → Nat) a + S3200x32.size a ≤ S3200x32.size a
  h_S3200x32 : 0 < S3200x32.numel
  packedbf16_S3200x32_S3200x32_0_0 : (Rect.unit (s := S3200x32) ![0, 0] S3200x32.size inb_S3200x32_S3200x32_0_0).PackedRows (EltTy.packing .bf16)
  inb_S50000x32_S50000x32_0_0 : ∀ a, (![0, 0] : Fin 2 → Nat) a + S50000x32.size a ≤ S50000x32.size a
  h_S50000x32 : 0 < S50000x32.numel
  shapeCasts_S50000x32_S50000x32 : S50000x32.ShapeCasts S50000x32
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  shapeCasts_S3200x32_S3200x32 : S3200x32.ShapeCasts S3200x32
  iota_S2000x1_d0_w32 : S2000x1.Iotas .tc 32 [0]
  broadcasts_S2000x1_S2000x3200 : S2000x1.Broadcasts S2000x3200
  broadcasts_S1x3200_S2000x3200 : S1x3200.Broadcasts S2000x3200
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S50000x32 : S1x32.Broadcasts S50000x32
  dot_S3200x2000_S2000x32_S3200x32_1_0_0_1_n_n_wf : DotDims.WF S3200x2000 S2000x32 S3200x32 [1] [0] [0] [1] [] []
  dot_S2000x3200_S3200x32_S2000x32_1_0_0_1_n_n_wf : DotDims.WF S2000x3200 S3200x32 S2000x32 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S2000x32.size a ≤ S50000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x1.size a ≤ S1600000x1.size a
  hwx0_0 : ∀ i : grid0.Coords, EltTy.bits .i32 = 32 ∨ (Rect.block (s := S1600000x1) S3200x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50000x32.size a ≤ S50000x32.size a
  hwx0_1 : ∀ i : grid0.Coords, EltTy.bits .bf16 = 32 ∨ (Rect.block (s := S50000x32) S50000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x32.size a ≤ S1600000x32.size a
  hwx0_2 : ∀ i : grid0.Coords, EltTy.bits .bf16 = 32 ∨ (Rect.block (s := S1600000x32) S3200x32.size (cc0_transform_2 i) (hinb0_2 i)).WholeWords (EltTy.packing .bf16)
  hrank1 : 0 < grid1.rank
  k1_t1_ok : k1_t1_loop.OK
  k1_mult1_dvd : ∀ k1_t1 : Fin k1_t1_loop.trips, 16 ∣ (k1_mult1 k1_t1).toNat
  k1_off1_inb : ∀ k1_t1 : Fin k1_t1_loop.trips, ∀ a, (k1_off1 k1_t1) a + S2000x32.size a ≤ S50000x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x1600000.size a
  hwx1_0 : ∀ i : grid1.Coords, EltTy.bits .i32 = 32 ∨ (Rect.block (s := S1x1600000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x32.size a ≤ S1600000x32.size a
  hwx1_1 : ∀ i : grid1.Coords, EltTy.bits .bf16 = 32 ∨ (Rect.block (s := S1600000x32) S3200x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50000x32.size a ≤ S50000x32.size a
  hwx1_3 : ∀ i : grid1.Coords, EltTy.bits .f32 = 32 ∨ (Rect.block (s := S50000x32) S50000x32.size (cc1_transform_3 i) (hinb1_3 i)).WholeWords (EltTy.packing .f32)

variable [Facts₀]

def dot_S3200x2000_S2000x32_S3200x32_1_0_0_1_n_n : DotDims S3200x2000 S2000x32 S3200x32 where
  lhsContracting := [1]
  rhsContracting := [0]
  lhsNonContracting := [0]
  rhsNonContracting := [1]
  lhsBatch := []
  rhsBatch := []
  wf := dot_S3200x2000_S2000x32_S3200x32_1_0_0_1_n_n_wf
def dot_S2000x3200_S3200x32_S2000x32_1_0_0_1_n_n : DotDims S2000x3200 S3200x32 S2000x32 where
  lhsContracting := [1]
  rhsContracting := [0]
  lhsNonContracting := [0]
  rhsNonContracting := [1]
  lhsBatch := []
  rhsBatch := []
  wf := dot_S2000x3200_S3200x32_S2000x32_1_0_0_1_n_n_wf

abbrev win0_0 : Pipeline.Window sig grid0 :=
  Pipeline.Window.ofSpec (Memref.whole main_v1) S3200x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S50000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3200x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S3200x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S50000x32.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1600000 : Shape := ⟨1, ![1600000]⟩
abbrev S50000x32 : Shape := ⟨2, ![50000, 32]⟩
abbrev S32 : Shape := ⟨1, ![32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩

abbrev nBuf : Space → Nat
  | .hbm => 23
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S50000x32, .f32⟩
  | .hbm, ⟨3, _⟩ => ⟨S32, .f32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1600000x32, .f32⟩
  | .hbm, ⟨13, _⟩ => ⟨S_, .f32⟩
  | .hbm, ⟨14, _⟩ => ⟨S50000x32, .f32⟩
  | .hbm, ⟨15, _⟩ => ⟨S1600000x1, .i32⟩
  | .hbm, ⟨16, _⟩ => ⟨S50000x32, .f32⟩
  | .hbm, ⟨17, _⟩ => ⟨S1x32, .f32⟩
  | .hbm, ⟨18, _⟩ => ⟨S50000x32, .f32⟩
  | .hbm, ⟨19, _⟩ => ⟨S50000x32, .f32⟩
  | .hbm, ⟨20, _⟩ => ⟨S_, .f32⟩
  | .hbm, ⟨21, _⟩ => ⟨S50000x32, .f32⟩
  | .hbm, ⟨22, _⟩ => ⟨S50000x32, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

class Facts : Prop extends Facts₀ where

variable [Facts]
-- ==== Proof.K.R0Body.lean ====
import proofs.«415180_j19327352832016_3_alg».proof.Proof.Gen.Kernel.Launch
import proofs.«415180_j19327352832016_3_alg».proof.Proof.Gen.Kernel.Skeleton
import proofs.«415180_j19327352832016_3_alg».proof.Proof.Gen.Kernel.Points
import proofs.«415180_j19327352832016_3_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's body: one block of gathered rows

The body reads the block of column indices (3200 of them) and the whole table, folds 25 slabs of the table
through the counted loop, and stores the rounded sum as the block of the result. -/

set_option maxHeartbeats 4000000 in
/-- The pieces the body leaves in the result's staging memref, with the body's triple on whole staging memrefs. -/
noncomputable def kernelRun0 (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec F S3200x1 .i32) (x1 : Vec F S50000x32 .bf16) :
    { L2 : List (View.Piece (Elt F) S3200x32 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__gather_kernel i arg1 harg1 arg2 harg2 arg3 harg3) K } := by
  refine ⟨?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.K.R0Data.lean ====
import proofs.«415180_j19327352832016_3_alg».proof.Proof.K.R0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's proof data

At a parameter `V` — the TensorCore's buffer contents when the region is entered —: each window's block at a point,
what the body leaves in the result's staging buffer there, and the body obligation. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of column indices is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The table is in its staging buffer at every point: fetched at the first, its index never moving after. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The staging memrefs the body is called with at point `t`. -/
abbrev ms0_0 (t : Fin cfg0.N) : Memref sig .tc .vmem S3200x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S50000x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3200x32 .bf16 := win0_2.stage (cfg0.slots t 2)
abbrev hs0_2 (t : Fin cfg0.N) : (ms0_2 t).IsWhole := hstage0_2 ((cfg0.slots t 2).cast nbuf0_2)

/-- One staging buffer of the result's window, through which its contents are stated. -/
abbrev VO0_2 : View sig .tc .vmem S3200x32 .bf16 := (Memref.whole cc0_stg2_0 : Memref sig .tc .vmem S3200x32 .bf16).view

/-- The body's one store covers the result's block. -/
theorem cover0_2 (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec F S3200x1 .i32) (x1 : Vec F S50000x32 .bf16) (y : S3200x32.Idx) :
    ∃ pc ∈ (kernelRun0 c i arg1 harg1 arg2 harg2 arg3 harg3 x0 x1).1, y ∈ pc.1.set :=
  View.cover_of_tiledL (kernelRun0 c i arg1 harg1 arg2 harg2 arg3 harg3 x0 x1).1 S3200x32.size (by sl_kernel_rfl) y

/-- What the body leaves in the result's staging buffer: its pieces read back. -/
def out0_2 (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec F S3200x1 .i32) (x1 : Vec F S50000x32 .bf16) : Vec F S3200x32 .bf16 :=
  VO0_2.read (Elt F) (VO0_2.writes (Elt F) VO0_2.junk (kernelRun0 c i arg1 harg1 arg2 harg2 arg3 harg3 x0 x1).1)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t
    = out0_2 c (grid0.coords t) (ms0_0 t) (hs0_0 t) (ms0_1 t) (hs0_1 t) (ms0_2 t) (hs0_2 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold out0_2 owns; iexists _; isplitr
  swap; · iexact H2
  ipureintro; exact View.read_writes_of_cover _ _ _ _ _ (cover0_2 c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.R1Runs.lean ====
import proofs.«415180_j19327352832016_3_alg».proof.Proof.Gen.Kernel.Launch
import proofs.«415180_j19327352832016_3_alg».proof.Proof.Gen.Kernel.Skeleton
import proofs.«415180_j19327352832016_3_alg».proof.Proof.Gen.Kernel.Points
import proofs.«415180_j19327352832016_3_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's body: what its runs share

The body zeroes the accumulator at the grid's first point, adds the block's contribution slab by slab in the counted
loop at every point, and at the last point stores the accumulator plus the bias, clipped below at zero, as the result. -/

/-- The first conditional: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 500 = 0 :=
  (by decide +kernel : ∀ t : Fin grid1.N, cond1_0 (grid1.coords t) ↔ t.val % 500 = 0)

/-- The second conditional: the point is the grid's last. -/
abbrev cond1_1 (i : grid1.Coords) : Prop := k1_cond2 i = 1#1
theorem hcond1_1 : ∀ t : Fin cfg1.N, cond1_1 (grid1.coords t) ↔ t.val % 500 = 499 :=
  (by decide +kernel : ∀ t : Fin grid1.N, cond1_1 (grid1.coords t) ↔ t.val % 500 = 499)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the result's window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S50000x32 .f32 := (Memref.whole cc1_stg3_0 : Memref sig .tc .vmem S50000x32 .f32).view
abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S50000x32 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S50000x32 .f32 := Memref.whole cc1_scratch0
abbrev VS1_0 : View sig .tc .vmem S50000x32 .f32 := scM1_0.view

/-- The region invariant of a kernel that describes nothing of its own, with the accumulator split out of the scoped rest. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.R1RunA.lean ====
import proofs.«415180_j19327352832016_3_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the result's staging memref and in the accumulator at the grid's first point, with the body's triple on whole memrefs. -/
noncomputable def kernelRun1_A (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (hc0 : cond1_0 i) (hc1 : ¬cond1_1 i)
    (x0 : Vec F S1x3200 .i32) (x1 : Vec F S3200x32 .bf16) (x2 : Vec F S1x32 .f32) :
    Σ' (L3 : List (View.Piece (Elt F) S50000x32 .f32)), { LS0 : List (View.Piece (Elt F) S50000x32 .f32) //
      ∀ (xi3 : Vec F S50000x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg1 harg1 arg2 harg2 arg3 harg3 arg4 harg4 arg5 harg5) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.R1RunB.lean ====
import proofs.«415180_j19327352832016_3_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the result's staging memref and in the accumulator at a point that is neither the first nor the last, with the body's triple on whole memrefs. -/
noncomputable def kernelRun1_B (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (hc0 : ¬cond1_0 i) (hc1 : ¬cond1_1 i)
    (x0 : Vec F S1x3200 .i32) (x1 : Vec F S3200x32 .bf16) (x2 : Vec F S1x32 .f32) (xs0 : Vec F S50000x32 .f32) :
    Σ' (L3 : List (View.Piece (Elt F) S50000x32 .f32)), { LS0 : List (View.Piece (Elt F) S50000x32 .f32) //
      ∀ (xi3 : Vec F S50000x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg1 harg1 arg2 harg2 arg3 harg3 arg4 harg4 arg5 harg5) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.R1RunC.lean ====
import proofs.«415180_j19327352832016_3_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the result's staging memref and in the accumulator at the grid's last point, with the body's triple on whole memrefs. -/
noncomputable def kernelRun1_C (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (hc0 : ¬cond1_0 i) (hc1 : cond1_1 i)
    (x0 : Vec F S1x3200 .i32) (x1 : Vec F S3200x32 .bf16) (x2 : Vec F S1x32 .f32) (xs0 : Vec F S50000x32 .f32) :
    Σ' (L3 : List (View.Piece (Elt F) S50000x32 .f32)), { LS0 : List (View.Piece (Elt F) S50000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg1 harg1 arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.Kernel.Hand

end
-- ==== Proof.K.R1Data.lean ====
import proofs.«415180_j19327352832016_3_alg».proof.Proof.K.R1RunA
import proofs.«415180_j19327352832016_3_alg».proof.Proof.K.R1RunB
import proofs.«415180_j19327352832016_3_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's proof data

At a parameter `V` — the TensorCore's buffer contents when the region is entered —: what the result's staging buffer
and the accumulator hold after each point, by recursion on the point; the region invariant naming the accumulator's
contents from the second point on; and the body obligation. -/

/-- What the body leaves in the result's staging buffer in case A (nothing is stored there: a placeholder nothing consults). -/
def out1_A_3 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : cond1_0 i) (hc1 : ¬cond1_1 i)
    (x0 : Vec F S1x3200 .i32) (x1 : Vec F S3200x32 .bf16) (x2 : Vec F S1x32 .f32) : Vec F S50000x32 .f32 :=
  VO1_3.read (Elt F) (VO1_3.writes (Elt F) VO1_3.junk (kernelRun1_A c i arg1 harg1 arg2 harg2 arg3 harg3 arg4 harg4 arg5 harg5 hc0 hc1 x0 x1 x2).1)

/-- The pieces the body stores into the accumulator in case A cover it. -/
theorem scover1_A_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : cond1_0 i) (hc1 : ¬cond1_1 i)
    (x0 : Vec F S1x3200 .i32) (x1 : Vec F S3200x32 .bf16) (x2 : Vec F S1x32 .f32) (y : S50000x32.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S50000x32.size (by sl_kernel_rfl) y

/-- What the body leaves in the accumulator in case A: its pieces read back. -/
def sout1_A_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : cond1_0 i) (hc1 : ¬cond1_1 i)
    (x0 : Vec F S1x3200 .i32) (x1 : Vec F S3200x32 .bf16) (x2 : Vec F S1x32 .f32) : Vec F S50000x32 .f32 :=
  VS1_0.read (Elt F) (VS1_0.writes (Elt F) VS1_0.junk (kernelRun1_A c i arg1 harg1 arg2 harg2 arg3 harg3 arg4 harg4 arg5 harg5 hc0 hc1 x0 x1 x2).2.1)

/-- What the body leaves in the result's staging buffer in case B (nothing is stored there: a placeholder nothing consults). -/
def out1_B_3 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : ¬cond1_1 i)
    (x0 : Vec F S1x3200 .i32) (x1 : Vec F S3200x32 .bf16) (x2 : Vec F S1x32 .f32) (xs0 : Vec F S50000x32 .f32) : Vec F S50000x32 .f32 :=
  VO1_3.read (Elt F) (VO1_3.writes (Elt F) VO1_3.junk (kernelRun1_B c i arg1 harg1 arg2 harg2 arg3 harg3 arg4 harg4 arg5 harg5 hc0 hc1 x0 x1 x2 xs0).1)

/-- The pieces the body stores into the accumulator in case B cover it. -/
theorem scover1_B_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : ¬cond1_1 i)
    (x0 : Vec F S1x3200 .i32) (x1 : Vec F S3200x32 .bf16) (x2 : Vec F S1x32 .f32) (xs0 : Vec F S50000x32 .f32) (y : S50000x32.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S2000x32.size (by sl_kernel_rfl) y

/-- What the body leaves in the accumulator in case B: its pieces read back. -/
def sout1_B_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : ¬cond1_1 i)
    (x0 : Vec F S1x3200 .i32) (x1 : Vec F S3200x32 .bf16) (x2 : Vec F S1x32 .f32) (xs0 : Vec F S50000x32 .f32) : Vec F S50000x32 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- At the last point the body's one store into the result's staging buffer covers it. -/
theorem cover1_C_3 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i)
    (x0 : Vec F S1x3200 .i32) (x1 : Vec F S3200x32 .bf16) (x2 : Vec F S1x32 .f32) (xs0 : Vec F S50000x32 .f32) (y : S50000x32.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S50000x32.size (by sl_kernel_rfl) y

/-- What the body leaves in the result's staging buffer in case C. -/
def out1_C_3 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i)
    (x0 : Vec F S1x3200 .i32) (x1 : Vec F S3200x32 .bf16) (x2 : Vec F S1x32 .f32) (xs0 : Vec F S50000x32 .f32) : Vec F S50000x32 .f32 :=
  VO1_3.read (Elt F) (VO1_3.writes (Elt F) VO1_3.junk (kernelRun1_C c i arg1 harg1 arg2 harg2 arg3 harg3 arg4 harg4 arg5 harg5 hc0 hc1 x0 x1 x2 xs0).1)

/-- The pieces the body stores into the accumulator in case C cover it. -/
theorem scover1_C_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i)
    (x0 : Vec F S1x3200 .i32) (x1 : Vec F S3200x32 .bf16) (x2 : Vec F S1x32 .f32) (xs0 : Vec F S50000x32 .f32) (y : S50000x32.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S2000x32.size (by sl_kernel_rfl) y

/-- What the body leaves in the accumulator in case C: its pieces read back. -/
def sout1_C_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i)
    (x0 : Vec F S1x3200 .i32) (x1 : Vec F S3200x32 .bf16) (x2 : Vec F S1x32 .f32) (xs0 : Vec F S50000x32 .f32) : Vec F S50000x32 .f32 :=
  VS1_0.read (Elt F) (VS1_0.writes (Elt F) VS1_0.junk (kernelRun1_C c i arg1 harg1 arg2 harg2 arg3 harg3 arg4 harg4 arg5 harg5 hc0 hc1 x0 x1 x2 xs0).2.1)

theorem ne0_of_succ (n : ℕ) (hn : n + 1 < cfg1.N) : ¬ (n + 1) % 500 = 0 := by
  have hN : n + 1 < 500 := lt_of_lt_of_eq hn (show cfg1.N = 500 from N_1); omega
theorem zero_ne_last : ¬ (0 : ℕ) % 500 = 499 := by decide

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the result's staging buffer and the accumulator hold after the body at position `n`. -/
def outsAt1 (c : Dev nD) : (n : ℕ) → n < cfg1.N → Vec F S50000x32 .f32 × Vec F S50000x32 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => zero_ne_last ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => zero_ne_last ((hcond1_1 ⟨0, hn⟩).mp h)) (iblk1 V c 0 ⟨0, hn⟩) (iblk1 V c 1 ⟨0, hn⟩) (iblk1 V c 2 ⟨0, hn⟩))
  | n + 1, hn =>
    if h1 : (n + 1) % 500 = 499 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => ne0_of_succ n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => ne0_of_succ n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => ne0_of_succ n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => ne0_of_succ n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 500 = 0) (h1 : ¬t.val % 500 = 499) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (ne0_of_succ n hn)

theorem outsAt1_B (c : Dev nD) (t : Fin cfg1.N) (h0 : ¬t.val % 500 = 0) (h1 : ¬t.val % 500 = 499) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt1_C (c : Dev nD) (t : Fin cfg1.N) (h0 : ¬t.val % 500 = 0) (h1 : t.val % 500 = 499) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-- The scoped buffers of the core that are neither this region's staging buffers nor the accumulator, each at some contents. -/
abbrev others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region invariant before position `n`: before the first point the accumulator at anything; afterwards at what the point
    before left in it. -/
def PhiS1 (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(others1 c (owns (c : Thread nD τ) scM1_0 fullShare ((outsAt1 V c (n - 1) (by omega)).2)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 500 := lt_of_lt_of_eq t.isLt (show cfg1.N = 500 from N_1)
  by_cases h1 : t.val % 500 = 499
  · have h0 : ¬ t.val % 500 = 0 := by omega
    have hz : t.val ≠ 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C_3 sout1_C_0; (try dsimp only)
    rw [PhiS1_castSucc V c t, PhiS1_pos V c _ _ hz]
    iintro ⟨⟨⟨Ha, Hb, Hc, Hd, He, HS0⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [Ha Hb Hc Hd He HS0 Hg]
    · isplitl [Ha Hb Hc Hd He HS0]
      · isplitl [Ha]; · iexact Ha
        isplitl [Hb]; · iexact Hb
        isplitl [Hc]; · iexact Hc
        isplitl [Hd]; · iexact Hd
        isplitl [He]; · iexact He
        unfold owns; iexists _; isplitr
        swap; · iexact HS0
        ipureintro; exact View.read_writes_of_cover _ _ _ _ _ (scover1_C_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · by_cases h0 : t.val % 500 = 0
    · have hz : t.val = 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      rw [PhiS1_castSucc V c t, PhiS1_zero V c _ _ hz, PhiA1_eq]
      iintro ⟨⟨⟨Ha, Hb, Hc, Hd, He, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · have hz : t.val ≠ 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back the accumulator at some contents. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

theorem hout1 (c : Dev nD) : (dat1 V c).Φ (Fin.last cfg1.N) ⊢ Pipeline.ΦA spec1 c :=
  Phi_out1 V c _ (by rw [Fin.val_last]; have : cfg1.N = 500 := N_1; omega)

end

end Cert.Kernel.Hand

end
-- ==== Proof.K.Run.lean ====
import proofs.«415180_j19327352832016_3_alg».proof.Proof.K.R0Data
import proofs.«415180_j19327352832016_3_alg».proof.Proof.K.R1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The buffer contents at each boundary of `main` — the launch, after the host operations, after each region —, the two
regions as segments, and the run: every weakly fair execution ends with every unscoped buffer at the last boundary's
contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V2 m ρ) c)
  hout c := by
    rw [Pipeline.ownSems0_none]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME, with the result named: the arguments end as launched and the result buffer holds what the second pipeline's
    write-back leaves. -/
theorem run_value : θ_run defs (onTc (τ := τ) (main (F := F))) ⟨m, fun _ => 0, ρ⟩ (fun r => ∀ c : Dev nD,
      r.2.mem ((c.tc : Thread nD τ).loc main_v5) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Hand

end
-- ==== Proof.KI.R0Body.lean ====
import proofs.«415180_j19327352832016_3_alg».proof.Proof.Gen.KernelIdeal.Launch
import proofs.«415180_j19327352832016_3_alg».proof.Proof.Gen.KernelIdeal.Skeleton
import proofs.«415180_j19327352832016_3_alg».proof.Proof.Gen.KernelIdeal.Points
import proofs.«415180_j19327352832016_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's body: one block of gathered rows

The body reads the block of column indices (3200 of them) and the whole table, folds 25 slabs of the table
through the counted loop, and stores the rounded sum as the block of the result. -/

set_option maxHeartbeats 4000000 in
/-- The pieces the body leaves in the result's staging memref, with the body's triple on whole staging memrefs. -/
noncomputable def kernelRun0 (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec F S3200x1 .i32) (x1 : Vec F S50000x32 .bf16) :
    { L2 : List (View.Piece (Elt F) S3200x32 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__gather_kernel i arg1 harg1 arg2 harg2 arg3 harg3) K } := by
  refine ⟨?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KI.R0Data.lean ====
import proofs.«415180_j19327352832016_3_alg».proof.Proof.KI.R0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's proof data

At a parameter `V` — the TensorCore's buffer contents when the region is entered —: each window's block at a point,
what the body leaves in the result's staging buffer there, and the body obligation. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of column indices is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The table is in its staging buffer at every point: fetched at the first, its index never moving after. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The staging memrefs the body is called with at point `t`. -/
abbrev ms0_0 (t : Fin cfg0.N) : Memref sig .tc .vmem S3200x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S50000x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3200x32 .bf16 := win0_2.stage (cfg0.slots t 2)
abbrev hs0_2 (t : Fin cfg0.N) : (ms0_2 t).IsWhole := hstage0_2 ((cfg0.slots t 2).cast nbuf0_2)

/-- One staging buffer of the result's window, through which its contents are stated. -/
abbrev VO0_2 : View sig .tc .vmem S3200x32 .bf16 := (Memref.whole cc0_stg2_0 : Memref sig .tc .vmem S3200x32 .bf16).view

/-- The body's one store covers the result's block. -/
theorem cover0_2 (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec F S3200x1 .i32) (x1 : Vec F S50000x32 .bf16) (y : S3200x32.Idx) :
    ∃ pc ∈ (kernelRun0 c i arg1 harg1 arg2 harg2 arg3 harg3 x0 x1).1, y ∈ pc.1.set :=
  View.cover_of_tiledL (kernelRun0 c i arg1 harg1 arg2 harg2 arg3 harg3 x0 x1).1 S3200x32.size (by sl_kernel_rfl) y

/-- What the body leaves in the result's staging buffer: its pieces read back. -/
def out0_2 (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec F S3200x1 .i32) (x1 : Vec F S50000x32 .bf16) : Vec F S3200x32 .bf16 :=
  VO0_2.read (Elt F) (VO0_2.writes (Elt F) VO0_2.junk (kernelRun0 c i arg1 harg1 arg2 harg2 arg3 harg3 x0 x1).1)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t
    = out0_2 c (grid0.coords t) (ms0_0 t) (hs0_0 t) (ms0_1 t) (hs0_1 t) (ms0_2 t) (hs0_2 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold out0_2 owns; iexists _; isplitr
  swap; · iexact H2
  ipureintro; exact View.read_writes_of_cover _ _ _ _ _ (cover0_2 c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1Runs.lean ====
import proofs.«415180_j19327352832016_3_alg».proof.Proof.Gen.KernelIdeal.Launch
import proofs.«415180_j19327352832016_3_alg».proof.Proof.Gen.KernelIdeal.Skeleton
import proofs.«415180_j19327352832016_3_alg».proof.Proof.Gen.KernelIdeal.Points
import proofs.«415180_j19327352832016_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's body: what its runs share

The body zeroes the accumulator at the grid's first point, adds the block's contribution slab by slab in the counted
loop at every point, and at the last point stores the accumulator plus the bias, clipped below at zero, as the result. -/

/-- The first conditional: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 500 = 0 :=
  (by decide +kernel : ∀ t : Fin grid1.N, cond1_0 (grid1.coords t) ↔ t.val % 500 = 0)

/-- The second conditional: the point is the grid's last. -/
abbrev cond1_1 (i : grid1.Coords) : Prop := k1_cond2 i = 1#1
theorem hcond1_1 : ∀ t : Fin cfg1.N, cond1_1 (grid1.coords t) ↔ t.val % 500 = 499 :=
  (by decide +kernel : ∀ t : Fin grid1.N, cond1_1 (grid1.coords t) ↔ t.val % 500 = 499)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the result's window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S50000x32 .f32 := (Memref.whole cc1_stg3_0 : Memref sig .tc .vmem S50000x32 .f32).view
abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S50000x32 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S50000x32 .f32 := Memref.whole cc1_scratch0
abbrev VS1_0 : View sig .tc .vmem S50000x32 .f32 := scM1_0.view

/-- The region invariant of a kernel that describes nothing of its own, with the accumulator split out of the scoped rest. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.R1RunA.lean ====
import proofs.«415180_j19327352832016_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the result's staging memref and in the accumulator at the grid's first point, with the body's triple on whole memrefs. -/
noncomputable def kernelRun1_A (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (hc0 : cond1_0 i) (hc1 : ¬cond1_1 i)
    (x0 : Vec F S1x3200 .i32) (x1 : Vec F S3200x32 .bf16) (x2 : Vec F S1x32 .f32) :
    Σ' (L3 : List (View.Piece (Elt F) S50000x32 .f32)), { LS0 : List (View.Piece (Elt F) S50000x32 .f32) //
      ∀ (xi3 : Vec F S50000x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg1 harg1 arg2 harg2 arg3 harg3 arg4 harg4 arg5 harg5) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.R1RunB.lean ====
import proofs.«415180_j19327352832016_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the result's staging memref and in the accumulator at a point that is neither the first nor the last, with the body's triple on whole memrefs. -/
noncomputable def kernelRun1_B (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (hc0 : ¬cond1_0 i) (hc1 : ¬cond1_1 i)
    (x0 : Vec F S1x3200 .i32) (x1 : Vec F S3200x32 .bf16) (x2 : Vec F S1x32 .f32) (xs0 : Vec F S50000x32 .f32) :
    Σ' (L3 : List (View.Piece (Elt F) S50000x32 .f32)), { LS0 : List (View.Piece (Elt F) S50000x32 .f32) //
      ∀ (xi3 : Vec F S50000x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg1 harg1 arg2 harg2 arg3 harg3 arg4 harg4 arg5 harg5) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.R1RunC.lean ====
import proofs.«415180_j19327352832016_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the result's staging memref and in the accumulator at the grid's last point, with the body's triple on whole memrefs. -/
noncomputable def kernelRun1_C (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (hc0 : ¬cond1_0 i) (hc1 : cond1_1 i)
    (x0 : Vec F S1x3200 .i32) (x1 : Vec F S3200x32 .bf16) (x2 : Vec F S1x32 .f32) (xs0 : Vec F S50000x32 .f32) :
    Σ' (L3 : List (View.Piece (Elt F) S50000x32 .f32)), { LS0 : List (View.Piece (Elt F) S50000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg1 harg1 arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.KernelIdeal.Hand

end
-- ==== Proof.KI.R1Data.lean ====
import proofs.«415180_j19327352832016_3_alg».proof.Proof.KI.R1RunA
import proofs.«415180_j19327352832016_3_alg».proof.Proof.KI.R1RunB
import proofs.«415180_j19327352832016_3_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's proof data

At a parameter `V` — the TensorCore's buffer contents when the region is entered —: what the result's staging buffer
and the accumulator hold after each point, by recursion on the point; the region invariant naming the accumulator's
contents from the second point on; and the body obligation. -/

/-- What the body leaves in the result's staging buffer in case A (nothing is stored there: a placeholder nothing consults). -/
def out1_A_3 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : cond1_0 i) (hc1 : ¬cond1_1 i)
    (x0 : Vec F S1x3200 .i32) (x1 : Vec F S3200x32 .bf16) (x2 : Vec F S1x32 .f32) : Vec F S50000x32 .f32 :=
  VO1_3.read (Elt F) (VO1_3.writes (Elt F) VO1_3.junk (kernelRun1_A c i arg1 harg1 arg2 harg2 arg3 harg3 arg4 harg4 arg5 harg5 hc0 hc1 x0 x1 x2).1)

/-- The pieces the body stores into the accumulator in case A cover it. -/
theorem scover1_A_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : cond1_0 i) (hc1 : ¬cond1_1 i)
    (x0 : Vec F S1x3200 .i32) (x1 : Vec F S3200x32 .bf16) (x2 : Vec F S1x32 .f32) (y : S50000x32.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S50000x32.size (by sl_kernel_rfl) y

/-- What the body leaves in the accumulator in case A: its pieces read back. -/
def sout1_A_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : cond1_0 i) (hc1 : ¬cond1_1 i)
    (x0 : Vec F S1x3200 .i32) (x1 : Vec F S3200x32 .bf16) (x2 : Vec F S1x32 .f32) : Vec F S50000x32 .f32 :=
  VS1_0.read (Elt F) (VS1_0.writes (Elt F) VS1_0.junk (kernelRun1_A c i arg1 harg1 arg2 harg2 arg3 harg3 arg4 harg4 arg5 harg5 hc0 hc1 x0 x1 x2).2.1)

/-- What the body leaves in the result's staging buffer in case B (nothing is stored there: a placeholder nothing consults). -/
def out1_B_3 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : ¬cond1_1 i)
    (x0 : Vec F S1x3200 .i32) (x1 : Vec F S3200x32 .bf16) (x2 : Vec F S1x32 .f32) (xs0 : Vec F S50000x32 .f32) : Vec F S50000x32 .f32 :=
  VO1_3.read (Elt F) (VO1_3.writes (Elt F) VO1_3.junk (kernelRun1_B c i arg1 harg1 arg2 harg2 arg3 harg3 arg4 harg4 arg5 harg5 hc0 hc1 x0 x1 x2 xs0).1)

/-- The pieces the body stores into the accumulator in case B cover it. -/
theorem scover1_B_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : ¬cond1_1 i)
    (x0 : Vec F S1x3200 .i32) (x1 : Vec F S3200x32 .bf16) (x2 : Vec F S1x32 .f32) (xs0 : Vec F S50000x32 .f32) (y : S50000x32.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S2000x32.size (by sl_kernel_rfl) y

/-- What the body leaves in the accumulator in case B: its pieces read back. -/
def sout1_B_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : ¬cond1_1 i)
    (x0 : Vec F S1x3200 .i32) (x1 : Vec F S3200x32 .bf16) (x2 : Vec F S1x32 .f32) (xs0 : Vec F S50000x32 .f32) : Vec F S50000x32 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- At the last point the body's one store into the result's staging buffer covers it. -/
theorem cover1_C_3 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i)
    (x0 : Vec F S1x3200 .i32) (x1 : Vec F S3200x32 .bf16) (x2 : Vec F S1x32 .f32) (xs0 : Vec F S50000x32 .f32) (y : S50000x32.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S50000x32.size (by sl_kernel_rfl) y

/-- What the body leaves in the result's staging buffer in case C. -/
def out1_C_3 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i)
    (x0 : Vec F S1x3200 .i32) (x1 : Vec F S3200x32 .bf16) (x2 : Vec F S1x32 .f32) (xs0 : Vec F S50000x32 .f32) : Vec F S50000x32 .f32 :=
  VO1_3.read (Elt F) (VO1_3.writes (Elt F) VO1_3.junk (kernelRun1_C c i arg1 harg1 arg2 harg2 arg3 harg3 arg4 harg4 arg5 harg5 hc0 hc1 x0 x1 x2 xs0).1)

/-- The pieces the body stores into the accumulator in case C cover it. -/
theorem scover1_C_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i)
    (x0 : Vec F S1x3200 .i32) (x1 : Vec F S3200x32 .bf16) (x2 : Vec F S1x32 .f32) (xs0 : Vec F S50000x32 .f32) (y : S50000x32.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S2000x32.size (by sl_kernel_rfl) y

/-- What the body leaves in the accumulator in case C: its pieces read back. -/
def sout1_C_0 (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i)
    (x0 : Vec F S1x3200 .i32) (x1 : Vec F S3200x32 .bf16) (x2 : Vec F S1x32 .f32) (xs0 : Vec F S50000x32 .f32) : Vec F S50000x32 .f32 :=
  VS1_0.read (Elt F) (VS1_0.writes (Elt F) VS1_0.junk (kernelRun1_C c i arg1 harg1 arg2 harg2 arg3 harg3 arg4 harg4 arg5 harg5 hc0 hc1 x0 x1 x2 xs0).2.1)

theorem ne0_of_succ (n : ℕ) (hn : n + 1 < cfg1.N) : ¬ (n + 1) % 500 = 0 := by
  have hN : n + 1 < 500 := lt_of_lt_of_eq hn (show cfg1.N = 500 from N_1); omega
theorem zero_ne_last : ¬ (0 : ℕ) % 500 = 499 := by decide

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the result's staging buffer and the accumulator hold after the body at position `n`. -/
def outsAt1 (c : Dev nD) : (n : ℕ) → n < cfg1.N → Vec F S50000x32 .f32 × Vec F S50000x32 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => zero_ne_last ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => zero_ne_last ((hcond1_1 ⟨0, hn⟩).mp h)) (iblk1 V c 0 ⟨0, hn⟩) (iblk1 V c 1 ⟨0, hn⟩) (iblk1 V c 2 ⟨0, hn⟩))
  | n + 1, hn =>
    if h1 : (n + 1) % 500 = 499 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => ne0_of_succ n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => ne0_of_succ n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => ne0_of_succ n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => ne0_of_succ n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 500 = 0) (h1 : ¬t.val % 500 = 499) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (ne0_of_succ n hn)

theorem outsAt1_B (c : Dev nD) (t : Fin cfg1.N) (h0 : ¬t.val % 500 = 0) (h1 : ¬t.val % 500 = 499) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt1_C (c : Dev nD) (t : Fin cfg1.N) (h0 : ¬t.val % 500 = 0) (h1 : t.val % 500 = 499) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-- The scoped buffers of the core that are neither this region's staging buffers nor the accumulator, each at some contents. -/
abbrev others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region invariant before position `n`: before the first point the accumulator at anything; afterwards at what the point
    before left in it. -/
def PhiS1 (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(others1 c (owns (c : Thread nD τ) scM1_0 fullShare ((outsAt1 V c (n - 1) (by omega)).2)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 500 := lt_of_lt_of_eq t.isLt (show cfg1.N = 500 from N_1)
  by_cases h1 : t.val % 500 = 499
  · have h0 : ¬ t.val % 500 = 0 := by omega
    have hz : t.val ≠ 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C_3 sout1_C_0; (try dsimp only)
    rw [PhiS1_castSucc V c t, PhiS1_pos V c _ _ hz]
    iintro ⟨⟨⟨Ha, Hb, Hc, Hd, He, HS0⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [Ha Hb Hc Hd He HS0 Hg]
    · isplitl [Ha Hb Hc Hd He HS0]
      · isplitl [Ha]; · iexact Ha
        isplitl [Hb]; · iexact Hb
        isplitl [Hc]; · iexact Hc
        isplitl [Hd]; · iexact Hd
        isplitl [He]; · iexact He
        unfold owns; iexists _; isplitr
        swap; · iexact HS0
        ipureintro; exact View.read_writes_of_cover _ _ _ _ _ (scover1_C_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · by_cases h0 : t.val % 500 = 0
    · have hz : t.val = 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      rw [PhiS1_castSucc V c t, PhiS1_zero V c _ _ hz, PhiA1_eq]
      iintro ⟨⟨⟨Ha, Hb, Hc, Hd, He, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · have hz : t.val ≠ 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back the accumulator at some contents. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

theorem hout1 (c : Dev nD) : (dat1 V c).Φ (Fin.last cfg1.N) ⊢ Pipeline.ΦA spec1 c :=
  Phi_out1 V c _ (by rw [Fin.val_last]; have : cfg1.N = 500 := N_1; omega)

end

end Cert.KernelIdeal.Hand

end
-- ==== Proof.KI.Run.lean ====
import proofs.«415180_j19327352832016_3_alg».proof.Proof.KI.R0Data
import proofs.«415180_j19327352832016_3_alg».proof.Proof.KI.R1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The buffer contents at each boundary of `main` — the launch, after the host operations, after each region —, the two
regions as segments, and the run: every weakly fair execution ends with every unscoped buffer at the last boundary's
contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V2 m ρ) c)
  hout c := by
    rw [Pipeline.ownSems0_none]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME, with the result named: the arguments end as launched and the result buffer holds what the second pipeline's
    write-back leaves. -/
theorem run_value : θ_run defs (onTc (τ := τ) (main (F := F))) ⟨m, fun _ => 0, ρ⟩ (fun r => ∀ c : Dev nD,
      r.2.mem ((c.tc : Thread nD τ).loc main_v5) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Hand

end
-- ==== Proof.Val.R0Open.lean ====
import proofs.«415180_j19327352832016_3_alg».proof.Proof.KI.R0Data
import Idealize.ShloMosaic.PureOps.Ideal.Laws
import Idealize.ShloMosaic.Lib.ValueIdx
import Idealize.ShloMosaic.Lib.Pipeline.Value
import Mathlib.Data.Fintype.BigOperators
import Mathlib.Algebra.BigOperators.Group.Finset.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The first region's body as a function of its blocks, over the extended reals -/

/-! The block the body leaves is one whole-block store of the rounded value its loop carries out. The loop starts from the
zero block and, slab by slab of 2000 table rows, adds the product of an indicator block — entry (e, n') is one when edge
`e`'s column index is the number of the slab's row n' — with the slab. Over the extended reals that product at (e, c)
is the slab's entry at the named row, so after all 25 slabs the carried value at (e, c) is the table's entry at the row
edge `e` names, written as a sum over all 50000 rows. -/

variable {F : FTy → Type} [FloatOps F]

/-! ## The body's one piece, and one trip of its loop -/

/-- The zero offsets of a whole-block access, however spelt. -/
theorem gather_zero_offsets : (![0, 0] : Fin 2 → Nat) = fun _ => 0 := funext fun a => by fin_cases a <;> rfl

/-- The loop runs over the 25 slabs of the table. -/
theorem gather_trips : k0_t1_loop.trips = 25 := by decide

/-- One trip of the loop: the payload of the carried sum and of slab `k` of the table (2000 rows from row `2000 k`). -/
theorem gather_trip_eq_payload (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (v0 : Vec F S3200x1 .i32) (x1 : Vec F S50000x32 .bf16) (k : Fin k0_t1_loop.trips) (acc : FVec F S3200x32 .f32) :
    tripR_k0_t1 (F := F) Variants.none c none i arg1 harg1 arg2 harg2 arg3 harg3 v0 (harg2.unread x1) k acc
      = k0_pay2 v0 k acc (View.ld x1 (Rect.unit (s := S50000x32) (k0_off1 k) S2000x32.size (k0_off1_inb k))) := by
  unfold tripR_k0_t1 trip_k0_t1
  dsimp only
  rw [View.readAt_eq_ld, harg2.read_unread]

/-- The block the body leaves is the rounded value the loop carries out of its last trip, from the zero block. -/
theorem out0_2_eq_loop (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec F S3200x1 .i32) (x1 : Vec F S50000x32 .bf16) :
    out0_2 (F := F) c i arg1 harg1 arg2 harg2 arg3 harg3 x0 x1
      = k0_pay3 (st_k0_t1 (F := F) Variants.none c none i arg1 harg1 arg2 harg2 arg3 harg3 x0 (harg2.unread x1) (k0_pay1 (F := F)) 25) := by
  unfold out0_2
  rw [View.read_writes_eq_canon _ _ _ (cover0_2 c i arg1 harg1 arg2 harg2 arg3 harg3 x0 x1)]
  unfold kernelRun0
  dsimp only
  sl_unfold_words
  rw [View.canon_unit_zero gather_zero_offsets]
  simp only [View.readAt_eq_ld, harg1.read_unread, View.ld_unit_zero (S := S3200x1) gather_zero_offsets]
  rw [show Scf.trips (0#32) (Scalar.addi 0#32 25#32) 1#32 = 25 from gather_trips]

/-! ## The payload of one trip at an entry, over the extended reals -/

/-- The word a comparison for equality leaves, widened and read as a signed integer, is the indicator of the equality. -/
theorem gather_indicator_word (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h; simp [IntOp.cmpi]
  · have hb : (x == y) = false := beq_eq_false_iff_ne.mpr h
    simp [IntOp.cmpi, h, hb]

/-- The row number that lane `n'` of slab `k` carries: the word of a sum is the sum of the words, so no bound is needed. -/
theorem gather_lane_word (k n' : Nat) :
    IntOp.addi (Scalar.muli (Scf.iv 0#32 1#32 k) 2000#32) (BitVec.ofNat 32 n') = BitVec.ofNat 32 (2000 * k + n') := by
  simp [IntOp.addi, Scalar.muli, IntOp.muli, Scf.iv, BitVec.ofNat_add, BitVec.ofNat_mul, Nat.mul_comm]

/-! The product's dimension numbers: [3200, 2000] by [2000, 32], contracting the slab's rows. The operand indices at a
result entry and a contracted row, axis by axis. -/

theorem lhs_gatherDot_0 (e : Fin 3200) (cc : Fin 32) (q : dot_S3200x2000_S2000x32_S3200x32_1_0_0_1_n_n.contr.Idx) :
    ((dot_S3200x2000_S2000x32_S3200x32_1_0_0_1_n_n.lhsIdx (ix2 e cc) q) 0).val = e.val := by
  simp [DotDims.lhsIdx, dot_S3200x2000_S2000x32_S3200x32_1_0_0_1_n_n]; rfl
theorem lhs_gatherDot_1 (e : Fin 3200) (cc : Fin 32) (q : dot_S3200x2000_S2000x32_S3200x32_1_0_0_1_n_n.contr.Idx) :
    ((dot_S3200x2000_S2000x32_S3200x32_1_0_0_1_n_n.lhsIdx (ix2 e cc) q) 1).val = (q ⟨0, by decide⟩).val :=
  dot_S3200x2000_S2000x32_S3200x32_1_0_0_1_n_n.lhsIdx_val_of_single rfl _ _
theorem rhs_gatherDot_0 (e : Fin 3200) (cc : Fin 32) (q : dot_S3200x2000_S2000x32_S3200x32_1_0_0_1_n_n.contr.Idx) :
    ((dot_S3200x2000_S2000x32_S3200x32_1_0_0_1_n_n.rhsIdx (ix2 e cc) q) 0).val = (q ⟨0, by decide⟩).val :=
  dot_S3200x2000_S2000x32_S3200x32_1_0_0_1_n_n.rhsIdx_val_of_single rfl _ _
theorem rhs_gatherDot_1 (e : Fin 3200) (cc : Fin 32) (q : dot_S3200x2000_S2000x32_S3200x32_1_0_0_1_n_n.contr.Idx) :
    ((dot_S3200x2000_S2000x32_S3200x32_1_0_0_1_n_n.rhsIdx (ix2 e cc) q) 1).val = cc.val := by
  simp [DotDims.rhsIdx, dot_S3200x2000_S2000x32_S3200x32_1_0_0_1_n_n]; rfl

/-- At result entry (e, c) and contracted row n' the product reads the indicator block at (e, n') … -/
theorem lhsIdx_gatherDot (e : Fin 3200) (cc : Fin 32) (n' : Fin 2000) :
    dot_S3200x2000_S2000x32_S3200x32_1_0_0_1_n_n.lhsIdx (ix2 e cc)
      ((contrEquiv1 dot_S3200x2000_S2000x32_S3200x32_1_0_0_1_n_n 2000 rfl rfl).symm n') = ix2 e n' := by
  funext ax; apply Fin.ext
  match ax with
  | ⟨0, _⟩ => exact lhs_gatherDot_0 _ _ _
  | ⟨1, _⟩ => exact (lhs_gatherDot_1 _ _ _).trans (contrEquiv1_symm_val dot_S3200x2000_S2000x32_S3200x32_1_0_0_1_n_n 2000 rfl rfl n')

/-- … and the slab at (n', c). -/
theorem rhsIdx_gatherDot (e : Fin 3200) (cc : Fin 32) (n' : Fin 2000) :
    dot_S3200x2000_S2000x32_S3200x32_1_0_0_1_n_n.rhsIdx (ix2 e cc)
      ((contrEquiv1 dot_S3200x2000_S2000x32_S3200x32_1_0_0_1_n_n 2000 rfl rfl).symm n') = ix2 n' cc := by
  funext ax; apply Fin.ext
  match ax with
  | ⟨0, _⟩ => exact (rhs_gatherDot_0 _ _ _).trans (contrEquiv1_symm_val dot_S3200x2000_S2000x32_S3200x32_1_0_0_1_n_n 2000 rfl rfl n')
  | ⟨1, _⟩ => exact rhs_gatherDot_1 _ _ _

/-- The broadcast column of indices reads edge `e`'s index in every lane. -/
theorem gather_col_broadcast_apply (v0 : Vec Ideal S3200x1 .i32) (e : Fin 3200) (n' : Fin 2000) :
    broadcastTo S3200x2000 (shapeCast S3200x1 v0 shapeCasts_S3200x1_S3200x1) broadcasts_S3200x1_S3200x2000 (ix2 e n')
      = v0 (ix2 e (0 : Fin 1)) := by
  rw [shapeCast_self]
  exact broadcastTo_apply v0 _ (ix2 e n') (ix2 e (0 : Fin 1)) (fun a => by
    match a with
    | ⟨0, _⟩ => rfl
    | ⟨1, _⟩ => rfl)

/-- The broadcast row of row numbers of slab `k` reads `2000 k + n'` in lane `n'`, on every edge. -/
theorem gather_row_broadcast_apply (k : Nat) (e : Fin 3200) (n' : Fin 2000) :
    broadcastTo S3200x2000
        (addi (broadcast S1x2000 (Scalar.muli (Scf.iv 0#32 1#32 k) 2000#32)) (iota Kind.tc S1x2000 32 [1] iota_S1x2000_d1_w32))
        broadcasts_S1x2000_S3200x2000 (ix2 e n')
      = BitVec.ofNat 32 (2000 * k + n'.val) := by
  refine (broadcastTo_apply _ _ (ix2 e n') (ix2 (0 : Fin 1) n') (fun a => by
    match a with
    | ⟨0, _⟩ => rfl
    | ⟨1, _⟩ => rfl)).trans ?_
  show IntOp.addi (Scalar.muli (Scf.iv 0#32 1#32 k) 2000#32) (iota Kind.tc S1x2000 32 [1] iota_S1x2000_d1_w32 (ix2 (0 : Fin 1) n')) = _
  rw [iota_single_apply]
  exact gather_lane_word k n'.val

/-- One trip's payload at entry (e, c): the carried sum there plus, over the slab's 2000 rows, the slab's entry at the row
    whose number is edge `e`'s column index, zero elsewhere. -/
theorem k0_pay2_apply (v0 : Vec Ideal S3200x1 .i32) (k : Fin k0_t1_loop.trips) (acc : FVec Ideal S3200x32 .f32)
    (v10 : Vec Ideal S2000x32 .bf16) (e : Fin 3200) (cc : Fin 32) :
    k0_pay2 v0 k acc v10 (ix2 e cc)
      = acc (ix2 e cc) + ∑ n' : Fin 2000,
          (if v0 (ix2 e (0 : Fin 1)) = BitVec.ofNat 32 (2000 * k.val + n'.val) then v10 (ix2 n' cc) else 0) := by
  unfold k0_pay2
  refine (addf_apply _ _ _).trans ?_
  refine congrArg (acc (ix2 e cc) + ·) ?_
  refine (Ideal.matmul_constant_zero_apply dot_S3200x2000_S2000x32_S3200x32_1_0_0_1_n_n none _ _ (ix2 e cc)).trans ?_
  rw [← Equiv.sum_comp (contrEquiv1 dot_S3200x2000_S2000x32_S3200x32_1_0_0_1_n_n 2000 rfl rfl).symm]
  refine Finset.sum_congr rfl fun n' _ => ?_
  rw [lhsIdx_gatherDot, rhsIdx_gatherDot]
  show FloatOps.sitofp (F := Ideal) .f32 ((IntOp.cmpi .eq (broadcastTo S3200x2000 _ _ (ix2 e n')) (broadcastTo S3200x2000 _ _ (ix2 e n'))).setWidth 32)
      * shapeCast S2000x32 v10 shapeCasts_S2000x32_S2000x32 (ix2 n' cc) = _
  rw [gather_indicator_word, gather_col_broadcast_apply, gather_row_broadcast_apply, shapeCast_self, ite_mul, one_mul, zero_mul]

/-! ## The loop's carried value, by induction over the slabs -/

/-- The table's entry (n, c) where edge `e`'s column index names row `n`, zero elsewhere (and past the table's last row). -/
def gatherPickRow (x0 : Vec Ideal S3200x1 .i32) (x1 : Vec Ideal S50000x32 .bf16) (e : Fin 3200) (cc : Fin 32) (n : ℕ) : EReal :=
  if h : n < 50000 then (if x0 (ix2 e (0 : Fin 1)) = BitVec.ofNat 32 n then x1 (ix2 (⟨n, h⟩ : Fin 50000) cc) else 0) else 0

/-- Slab `k` as the loop loads it: row `n'` of it is row `2000 k + n'` of the table. -/
theorem gather_slab_ld_apply (x1 : Vec Ideal S50000x32 .bf16) (k : Fin k0_t1_loop.trips) (n' : Fin 2000) (cc : Fin 32)
    (h : 2000 * k.val + n'.val < 50000) :
    View.ld x1 (Rect.unit (s := S50000x32) (k0_off1 k) S2000x32.size (k0_off1_inb k)) (ix2 n' cc)
      = x1 (ix2 (⟨2000 * k.val + n'.val, h⟩ : Fin 50000) cc) := by
  show x1 _ = x1 _
  refine congrArg x1 (funext fun a => Fin.ext ?_)
  match a with
  | ⟨0, _⟩ =>
    show k0_off1 k 0 + 1 * n'.val = 2000 * k.val + n'.val
    rw [k0_off1_eq k]; show 2000 * k.val + 1 * n'.val = _; omega
  | ⟨1, _⟩ =>
    show k0_off1 k 1 + 1 * cc.val = cc.val
    rw [k0_off1_eq k]; show 0 + 1 * cc.val = _; omega

/-- Before trip `k` the carried value at (e, c) is the sum over the first `2000 k` rows of the table. -/
theorem st_k0_t1_apply (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec Ideal S3200x1 .i32) (x1 : Vec Ideal S50000x32 .bf16) (e : Fin 3200) (cc : Fin 32) :
    ∀ k : ℕ, k ≤ 25 →
      st_k0_t1 (F := Ideal) Variants.none c none i arg1 harg1 arg2 harg2 arg3 harg3 x0 (harg2.unread x1) (k0_pay1 (F := Ideal)) k (ix2 e cc)
        = ∑ n ∈ Finset.range (2000 * k), gatherPickRow x0 x1 e cc n := by
  intro k
  induction k with
  | zero =>
    intro _
    show Ideal.ofBits .f32 0x00000000#32 = _
    rw [Ideal.ofBits_zero_f32]; simp
  | succ k ih =>
    intro hk
    have hk' : k < k0_t1_loop.trips := by rw [gather_trips]; omega
    have hs := st_k0_t1_succ (F := Ideal) Variants.none c none i arg1 harg1 arg2 harg2 arg3 harg3 x0 (harg2.unread x1)
      (k0_pay1 (F := Ideal)) ⟨k, hk'⟩
    rw [show (st_k0_t1 (F := Ideal) Variants.none c none i arg1 harg1 arg2 harg2 arg3 harg3 x0 (harg2.unread x1) (k0_pay1 (F := Ideal)) (k + 1))
        = _ from hs, gather_trip_eq_payload, k0_pay2_apply]
    show st_k0_t1 (F := Ideal) Variants.none c none i arg1 harg1 arg2 harg2 arg3 harg3 x0 (harg2.unread x1) (k0_pay1 (F := Ideal)) k (ix2 e cc) + _ = _
    rw [ih (by omega), show 2000 * (k + 1) = 2000 * k + 2000 from by ring, Finset.sum_range_add,
      ← Fin.sum_univ_eq_sum_range (fun m => gatherPickRow x0 x1 e cc (2000 * k + m)) 2000]
    refine congrArg (_ + ·) (Finset.sum_congr rfl fun n' _ => ?_)
    have hn : 2000 * k + n'.val < 50000 := by have := n'.isLt; omega
    unfold gatherPickRow
    rw [dif_pos hn, gather_slab_ld_apply x1 ⟨k, hk'⟩ n' cc hn]

/-- The sum over the table's rows as a sum over the row type. -/
theorem sum_range_gatherPickRow (x0 : Vec Ideal S3200x1 .i32) (x1 : Vec Ideal S50000x32 .bf16) (e : Fin 3200) (cc : Fin 32) :
    ∑ n ∈ Finset.range 50000, gatherPickRow x0 x1 e cc n
      = ∑ n : Fin 50000, if x0 (ix2 e (0 : Fin 1)) = BitVec.ofNat 32 n.val then x1 (ix2 n cc) else 0 := by
  rw [← Fin.sum_univ_eq_sum_range (fun n => gatherPickRow x0 x1 e cc n) 50000]
  refine Finset.sum_congr rfl fun n _ => ?_
  unfold gatherPickRow
  rw [dif_pos n.isLt]

/-! ## The block as a function of the two input blocks -/

/-- Row `j 0` of the result's block is the table's row named by that row's column index: the sum over the table's rows of
    the row where the index is that row's number, zero elsewhere. -/
theorem out0_2_eq (c : Dev nD) (i : grid0.Coords)
    (arg1 : Memref sig .tc .vmem S3200x1 .i32) (harg1 : arg1.IsWhole)
    (arg2 : Memref sig .tc .vmem S50000x32 .bf16) (harg2 : arg2.IsWhole)
    (arg3 : Memref sig .tc .vmem S3200x32 .bf16) (harg3 : arg3.IsWhole)
    (x0 : Vec Ideal S3200x1 .i32) (x1 : Vec Ideal S50000x32 .bf16) :
    out0_2 (F := Ideal) c i arg1 harg1 arg2 harg2 arg3 harg3 x0 x1
      = fun j : S3200x32.Idx => ∑ n : Fin 50000,
          if x0 (ix2 (⟨(j 0).val, (j 0).isLt⟩ : Fin 3200) (0 : Fin 1)) = BitVec.ofNat 32 n.val then x1 (ix2 n (⟨(j 1).val, (j 1).isLt⟩ : Fin 32)) else 0 := by
  rw [out0_2_eq_loop]
  funext j
  obtain ⟨e, cc, rfl⟩ : ∃ (e : Fin 3200) (cc : Fin 32), j = ix2 e cc := ⟨j 0, j 1, eq_ix2 j⟩
  show st_k0_t1 (F := Ideal) Variants.none c none i arg1 harg1 arg2 harg2 arg3 harg3 x0 (harg2.unread x1) (k0_pay1 (F := Ideal)) 25 (ix2 e cc) = _
  rw [st_k0_t1_apply c i arg1 harg1 arg2 harg2 arg3 harg3 x0 x1 e cc 25 (le_refl _)]
  exact sum_range_gatherPickRow x0 x1 e cc

end Cert.KernelIdeal.Hand

end
-- ==== Proof.Val.Spec.lean ====
import Idealize.ShloMosaic.PureOps.Ideal
import Idealize.ShloMosaic.Lib.ValueIdx

/-! # The function both programs compute

For edge index arrays `row`, `col` (1,600,000 words each), a table `w` of 50,000 rows of 32 extended reals and a
bias `b` of 32: edge `e` carries the table's row named by `col e` — written as the sum over the table's rows `n` of the row
where `col e` is the word `n`, zero elsewhere —; node `n` collects the rows carried by the edges whose `row` word is `n`; the
result adds the bias and clips below at zero. -/

noncomputable section

namespace Cert.Spec

open Idealize.ShloMosaic Idealize.ShloMosaic.ValueIdx

abbrev SE : Shape := ⟨1, ![1600000]⟩
abbrev SN32 : Shape := ⟨2, ![50000, 32]⟩
abbrev SE32 : Shape := ⟨2, ![1600000, 32]⟩
abbrev S32 : Shape := ⟨1, ![32]⟩

/-- What edge `e` carries in column `c`: the table's entry at the row its `col` word names. -/
def msgAt (col : IVec SE 32) (w : SN32.Idx → EReal) (e : Fin 1600000) (c : Fin 32) : EReal :=
  ∑ n : Fin 50000, if col (ix1 e) = BitVec.ofNat 32 n.val then w (ix2 n c) else 0

/-- What node `n` collects in column `c`: the sum over the edges whose `row` word is `n`. -/
def aggAt (row col : IVec SE 32) (w : SN32.Idx → EReal) (n : Fin 50000) (c : Fin 32) : EReal :=
  ∑ e : Fin 1600000, if row (ix1 e) = BitVec.ofNat 32 n.val then msgAt col w e c else 0

/-- The result: the collected sum plus the bias, clipped below at zero. -/
def G (row col : IVec SE 32) (w : SN32.Idx → EReal) (b : S32.Idx → EReal) : SN32.Idx → EReal :=
  fun i => max (aggAt row col w ⟨(i 0).val, (i 0).isLt⟩ ⟨(i 1).val, (i 1).isLt⟩ + b (ix1 ⟨(i 1).val, (i 1).isLt⟩)) 0

end Cert.Spec

end
-- ==== Proof.Val.R0Value.lean ====
import proofs.«415180_j19327352832016_3_alg».proof.Proof.Val.R0Open
import proofs.«415180_j19327352832016_3_alg».proof.Proof.Val.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # From the blocks to the array

Point `t` of the grid reads rows `3200 t … 3200 t + 3199` of the column-index array and the whole table, and writes rows
`3200 t … 3200 t + 3199` of the result; the 500 blocks tile the result's 1,600,000 rows, so the array after the region is one
function of the two arrays, index by index. -/

section
variable (V : (c : Dev nD) → (b : Ref sig .tc) → Buf (Elt Ideal) ((c : Thread nD τ).loc b))

/-- The array of the edges' column indices, as the region finds it. -/
abbrev colArr (c : Dev nD) : Vec Ideal S1600000x1 .i32 := V c main_v1
/-- The table, as the region finds it. -/
abbrev tblArr (c : Dev nD) : Vec Ideal S50000x32 .bf16 := V c main_v0

/-- Row `i 0` of the result as a function of the two arrays: the table's row named by that edge's column index. -/
def gathered (cols : Vec Ideal S1600000x1 .i32) (tbl : Vec Ideal S50000x32 .bf16) : Vec Ideal S1600000x32 .bf16 :=
  fun i => ∑ n : Fin 50000,
    if cols (ix2 (⟨(i 0).val, (i 0).isLt⟩ : Fin 1600000) (0 : Fin 1)) = BitVec.ofNat 32 n.val then tbl (ix2 n (⟨(i 1).val, (i 1).isLt⟩ : Fin 32)) else 0

/-- The block indices of the three windows at point `t`: the edge blocks move with the point, the table stays. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of column indices at point `t` is rows `3200 t … 3200 t + 3199` of their array. -/
theorem colBlock_apply (c : Dev nD) (t : Fin cfg0.N) (x : S3200x1.Idx) (k : S1600000x1.Idx)
    (hk0 : (k 0).val = t.val * 3200 + (x 0).val) (hk1 : (k 1).val = (x 1).val) :
    (iblk0 (F := Ideal) V c 0 t : Vec Ideal S3200x1 .i32) x = colArr V c k := by
  obtain ⟨e0, e1, -⟩ := blockIndex0 t
  unfold iblk0
  rw [View.read_apply]
  show V c main_v1 _ = V c main_v1 _
  congr 1
  funext a
  apply Fin.ext
  match a with
  | ⟨0, _⟩ => show win0_0.index t (0 : Fin 2) * 3200 + 1 * (x 0).val = (k 0).val; rw [e0, hk0]; omega
  | ⟨1, _⟩ => show win0_0.index t (1 : Fin 2) * 1 + 1 * (x 1).val = (k 1).val; rw [e1, hk1]; omega

/-- The table's block at every point is the whole table. -/
theorem tblBlock_apply (c : Dev nD) (t : Fin cfg0.N) (x : S50000x32.Idx) :
    (iblk0 (F := Ideal) V c 1 t : Vec Ideal S50000x32 .bf16) x = tblArr V c x := by
  obtain ⟨-, -, e0, e1, -⟩ := blockIndex0 t
  unfold iblk0
  rw [View.read_apply]
  show V c main_v0 _ = V c main_v0 _
  congr 1
  funext a
  apply Fin.ext
  match a with
  | ⟨0, _⟩ => show win0_1.index t (0 : Fin 2) * 50000 + 1 * (x 0).val = (x 0).val; rw [e0]; omega
  | ⟨1, _⟩ => show win0_1.index t (1 : Fin 2) * 32 + 1 * (x 1).val = (x 1).val; rw [e1]; omega

end

section
variable (V : (c : Dev nD) → (b : Ref sig .tc) → Buf (Elt Ideal) ((c : Thread nD τ).loc b))

/-- The block of column indices at point `t`, -/
abbrev colBlk (c : Dev nD) (t : Fin cfg0.N) : Vec Ideal S3200x1 .i32 := iblk0 (F := Ideal) V c 0 t
/-- and the table's block there. -/
abbrev tblBlk (c : Dev nD) (t : Fin cfg0.N) : Vec Ideal S50000x32 .bf16 := iblk0 (F := Ideal) V c 1 t

/-- Row `j 0` of point `t`'s result block is row `3200 t + j 0` of the gathered array. -/
theorem gathered_block (c : Dev nD) (t : Fin cfg0.N) (j : S3200x32.Idx) (k : S1600000x32.Idx)
    (hk0 : (k 0).val = t.val * 3200 + (j 0).val) (hk1 : (k 1).val = (j 1).val) :
    (∑ n : Fin 50000,
      if colBlk V c t (ix2 (⟨(j 0).val, (j 0).isLt⟩ : Fin 3200) (0 : Fin 1)) = BitVec.ofNat 32 n.val
        then tblBlk V c t (ix2 n (⟨(j 1).val, (j 1).isLt⟩ : Fin 32)) else 0)
      = gathered (colArr V c) (tblArr V c) k := by
  unfold gathered
  rw [show colBlk V c t (ix2 (⟨(j 0).val, (j 0).isLt⟩ : Fin 3200) (0 : Fin 1)) = colArr V c (ix2 (⟨(k 0).val, (k 0).isLt⟩ : Fin 1600000) (0 : Fin 1)) from
    colBlock_apply V c t (ix2 (⟨(j 0).val, (j 0).isLt⟩ : Fin 3200) (0 : Fin 1)) (ix2 (⟨(k 0).val, (k 0).isLt⟩ : Fin 1600000) (0 : Fin 1)) hk0 rfl]
  refine Finset.sum_congr rfl fun n _ => ?_
  rw [show tblBlk V c t (ix2 n (⟨(j 1).val, (j 1).isLt⟩ : Fin 32)) = tblArr V c (ix2 n (⟨(j 1).val, (j 1).isLt⟩ : Fin 32)) from
    tblBlock_apply V c t (ix2 n (⟨(j 1).val, (j 1).isLt⟩ : Fin 32))]
  have e : (⟨(j 1).val, (j 1).isLt⟩ : Fin 32) = ⟨(k 1).val, (k 1).isLt⟩ := Fin.ext hk1.symm
  rw [e]

/-- What point `t` writes back is block `t` of the gathered array. -/
theorem flushed0_2_eq (c : Dev nD) (t : Fin cfg0.N) :
    (dat0 (F := Ideal) V c).flushed 2 t = ((cfg0.win 2).blk t).view.read (Elt Ideal) (gathered (colArr V c) (tblArr V c)) := by
  show (cfg0.win 2).cut (grid0.coords t) ((dat0 (F := Ideal) V c).after 2 t) = _
  rw [after0_2, out0_2_eq]
  obtain ⟨-, -, -, -, e0, e1⟩ := blockIndex0 t
  funext j
  rw [View.read_apply, cast_eq]
  have h0 : ((((cfg0.win 2).blk t).view.emb j) 0).val = t.val * 3200 + (j 0).val := by
    show win0_2.index t (0 : Fin 2) * 3200 + 1 * (j 0).val = t.val * 3200 + (j 0).val
    rw [e0]; omega
  have h1 : ((((cfg0.win 2).blk t).view.emb j) 1).val = (j 1).val := by
    show win0_2.index t (1 : Fin 2) * 32 + 1 * (j 1).val = (j 1).val
    rw [e1]; omega
  exact gathered_block V c t ((cfg0.win 2).xinj (grid0.coords t) j) (((cfg0.win 2).blk t).view.emb j) h0 h1

end

section
variable (V : (c : Dev nD) → (b : Ref sig .tc) → Buf (Elt Ideal) ((c : Thread nD τ).loc b))

/-- An index of the result array is in point `t`'s block iff each coordinate is in the block's range on its axis. -/
theorem mem_block0_2 (t : Fin cfg0.N) (i : S1600000x32.Idx) :
    i ∈ ((cfg0.win 2).blk t).view.set ↔ ∀ a : Fin 2, win0_2.index t a * S3200x32.size a ≤ (i a).val ∧ (i a).val < win0_2.index t a * S3200x32.size a + S3200x32.size a := by
  show i ∈ ((View.whole main_v4).slice (win0_2.rect t)).set ↔ _
  rw [View.set_slice_whole, Rect.mem_set_unit]
  exact Iff.rfl

/-- Every row of the result array is in the block of the point its number divided by 3200 names, and every point writes back. -/
theorem covered0_2 (i : S1600000x32.Idx) :
    ∃ t : Fin cfg0.N, (cfg0.win 2).flush t = true ∧ i ∈ ((cfg0.win 2).blk t).view.set := by
  have hi0 : (i 0).val < 1600000 := (i 0).isLt
  have hi1 : (i 1).val < 32 := (i 1).isLt
  have hN : cfg0.N = 500 := N_0
  have ht : (i 0).val / 3200 < cfg0.N := by rw [hN]; omega
  refine ⟨⟨(i 0).val / 3200, ht⟩, flush0_2 _, ?_⟩
  rw [mem_block0_2]
  obtain ⟨-, -, -, -, e0, e1⟩ := blockIndex0 ⟨(i 0).val / 3200, ht⟩
  intro a
  match a with
  | ⟨0, _⟩ =>
    show win0_2.index ⟨(i 0).val / 3200, ht⟩ (0 : Fin 2) * 3200 ≤ (i 0).val ∧ (i 0).val < win0_2.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_2.index ⟨(i 0).val / 3200, ht⟩ (1 : Fin 2) * 32 ≤ (i 1).val ∧ (i 1).val < win0_2.index ⟨(i 0).val / 3200, ht⟩ (1 : Fin 2) * 32 + 32
    rw [e1]; omega

/-- The result array after the region: the gathered array of the two arrays as the region finds them. -/
theorem arr0_2_eq (c : Dev nD) : (dat0 (F := Ideal) V c).arrAt 2 cfg0.N = gathered (colArr V c) (tblArr V c) :=
  (dat0 (F := Ideal) V c).arrAt_eq_of_cover 2 (gathered (colArr V c) (tblArr V c)) (fun t _ => flushed0_2_eq V c t) covered0_2

end

/-! # What the first region leaves in its result array -/

/-- The first region's result array holds, at edge `e` and column `c'`, the table's row named by the edge's column index. -/
theorem msg_value (V : (c : Dev nD) → (b : Ref sig .tc) → Buf (Elt Ideal) ((c : Thread nD τ).loc b)) (c : Dev nD)
    (col : IVec Cert.Spec.SE 32) (w : Cert.Spec.SN32.Idx → EReal)
    (hcol : ∀ e : Fin 1600000, (V c main_v1 : S1600000x1.Idx → BitVec 32) (ix2 e (0 : Fin 1)) = col (ix1 e))
    (hw : ∀ (n : Fin 50000) (c' : Fin 32), (V c main_v0 : S50000x32.Idx → EReal) (ix2 n c') = w (ix2 n c')) :
    (dat0 (F := Ideal) V c).arrAt 2 cfg0.N
      = fun i : S1600000x32.Idx => Cert.Spec.msgAt col w ⟨(i 0).val, (i 0).isLt⟩ ⟨(i 1).val, (i 1).isLt⟩ := by
  rw [arr0_2_eq V c]
  funext i
  unfold gathered Cert.Spec.msgAt
  rw [show colArr V c (ix2 (⟨(i 0).val, (i 0).isLt⟩ : Fin 1600000) (0 : Fin 1)) = col (ix1 ⟨(i 0).val, (i 0).isLt⟩) from hcol ⟨(i 0).val, (i 0).isLt⟩]
  refine Finset.sum_congr rfl fun n _ => ?_
  rw [show tblArr V c (ix2 n (⟨(i 1).val, (i 1).isLt⟩ : Fin 32)) = w (ix2 n ⟨(i 1).val, (i 1).isLt⟩) from hw n ⟨(i 1).val, (i 1).isLt⟩]

end Cert.KernelIdeal.Hand

end
-- ==== Proof.Val.R1Open.lean ====
import proofs.«415180_j19327352832016_3_alg».proof.Proof.KI.R1Data
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The second region's body as a function of its blocks, over the extended reals -/

/-- What one block of edges adds to node `j 0` in column `j 1`: the sum of the block's rows whose node index is that node. -/
def contrib (x0 : Vec Ideal S1x3200 .i32) (x1 : Vec Ideal S3200x32 .bf16) (j : S50000x32.Idx) : EReal :=
  ∑ e : Fin 3200, if x0 (ix2 (0 : Fin 1) e) = BitVec.ofNat 32 (j 0).val then x1 (ix2 e (⟨(j 1).val, (j 1).isLt⟩ : Fin 32)) else 0

/-! ## The slab product read at an index -/

/-- The indicator matrix's index at a result index: its row is the result's row, -/
theorem k1_lhsIdx_0 (i : S2000x32.Idx) (q : dot_S2000x3200_S3200x32_S2000x32_1_0_0_1_n_n.contr.Idx) :
    (dot_S2000x3200_S3200x32_S2000x32_1_0_0_1_n_n.lhsIdx i q 0).val = (i 0).val := by
  unfold DotDims.lhsIdx
  rw [dif_neg (show ¬(0 : Fin S2000x3200.rank) ∈ dot_S2000x3200_S3200x32_S2000x32_1_0_0_1_n_n.lhsBatch by decide),
    dif_pos (show (0 : Fin S2000x3200.rank) ∈ dot_S2000x3200_S3200x32_S2000x32_1_0_0_1_n_n.lhsNonContracting by decide)]
  rfl
/-- its column the contracted edge; -/
theorem k1_lhsIdx_1 (i : S2000x32.Idx) (q : dot_S2000x3200_S3200x32_S2000x32_1_0_0_1_n_n.contr.Idx) :
    (dot_S2000x3200_S3200x32_S2000x32_1_0_0_1_n_n.lhsIdx i q 1).val = (q ⟨0, by decide⟩).val :=
  dot_S2000x3200_S3200x32_S2000x32_1_0_0_1_n_n.lhsIdx_val_of_single rfl i q
/-- the message block's index: its row is the contracted edge, -/
theorem k1_rhsIdx_0 (i : S2000x32.Idx) (q : dot_S2000x3200_S3200x32_S2000x32_1_0_0_1_n_n.contr.Idx) :
    (dot_S2000x3200_S3200x32_S2000x32_1_0_0_1_n_n.rhsIdx i q 0).val = (q ⟨0, by decide⟩).val :=
  dot_S2000x3200_S3200x32_S2000x32_1_0_0_1_n_n.rhsIdx_val_of_single rfl i q
/-- its column the result's column. -/
theorem k1_rhsIdx_1 (i : S2000x32.Idx) (q : dot_S2000x3200_S3200x32_S2000x32_1_0_0_1_n_n.contr.Idx) :
    (dot_S2000x3200_S3200x32_S2000x32_1_0_0_1_n_n.rhsIdx i q 1).val = (i 1).val := by
  unfold DotDims.rhsIdx
  rw [dif_neg (show ¬(1 : Fin S3200x32.rank) ∈ dot_S2000x3200_S3200x32_S2000x32_1_0_0_1_n_n.rhsBatch by decide),
    dif_pos (show (1 : Fin S3200x32.rank) ∈ dot_S2000x3200_S3200x32_S2000x32_1_0_0_1_n_n.rhsNonContracting by decide)]
  rfl

/-- The slab's product into a zero accumulator, at row `r` and column `q`: the sum over the block's edges. -/
theorem k1_matmul_slab_apply (lhs : FVec Ideal S2000x3200 .bf16) (rhs : FVec Ideal S3200x32 .bf16) (r : Fin 2000) (q : Fin 32) :
    FloatOps.matmul dot_S2000x3200_S3200x32_S2000x32_1_0_0_1_n_n none lhs rhs (constant (F := Ideal) S2000x32 .f32 0x00000000#32) (ix2 r q)
      = ∑ e : Fin 3200, lhs (ix2 r e) * rhs (ix2 e q) := by
  rw [Ideal.matmul_constant_zero_apply, ← Equiv.sum_comp (contrEquiv1 dot_S2000x3200_S3200x32_S2000x32_1_0_0_1_n_n 3200 rfl rfl).symm]
  refine Finset.sum_congr rfl fun e _ => ?_
  have hk := contrEquiv1_symm_val dot_S2000x3200_S3200x32_S2000x32_1_0_0_1_n_n 3200 rfl rfl e
  have el : dot_S2000x3200_S3200x32_S2000x32_1_0_0_1_n_n.lhsIdx (ix2 r q) ((contrEquiv1 dot_S2000x3200_S3200x32_S2000x32_1_0_0_1_n_n 3200 rfl rfl).symm e) = ix2 r e := funext fun a => Fin.ext (by
    match a with
    | ⟨0, _⟩ => exact k1_lhsIdx_0 _ _
    | ⟨1, _⟩ => exact (k1_lhsIdx_1 _ _).trans hk)
  have er : dot_S2000x3200_S3200x32_S2000x32_1_0_0_1_n_n.rhsIdx (ix2 r q) ((contrEquiv1 dot_S2000x3200_S3200x32_S2000x32_1_0_0_1_n_n 3200 rfl rfl).symm e) = ix2 e q := funext fun a => Fin.ext (by
    match a with
    | ⟨0, _⟩ => exact (k1_rhsIdx_0 _ _).trans hk
    | ⟨1, _⟩ => exact k1_rhsIdx_1 _ _)
  rw [el, er]

/-- The first node of slab `k`, as the body computes its word. -/
theorem k1_slab_base_word : ∀ k : Fin k1_t1_loop.trips,
    Scalar.muli (Scalar.addi 0#32 (Scalar.muli (Scf.iv 0#32 1#32 k) 1#32)) 2000#32 = BitVec.ofNat 32 (2000 * k.val) := by
  decide +kernel

/-- A one-bit word, widened and read as a signed integer, is `1` or `0`. -/
theorem k1_indicator_toInt (b : Bool) : (((BitVec.ofBool b).setWidth 32).toInt : ℝ) = if b then 1 else 0 := by
  cases b <;> simp

/-- The indicator of two words being equal, as the body computes it (compare, widen, convert), times a value. -/
theorem k1_indicator_mul (a b : BitVec 32) (x : EReal) :
    (FloatOps.sitofp (F := Ideal) .f32 ((IntOp.cmpi .eq a b).setWidth 32) : EReal) * x = if b = a then x else 0 := by
  show (((((BitVec.ofBool (a == b)).setWidth 32).toInt : ℝ) : EReal)) * x = _
  rw [k1_indicator_toInt]
  by_cases h : b = a
  · subst h; simp
  · have hab : (a == b) = false := by simpa using (Ne.symm h)
    rw [hab, if_neg h]; simp

/-- The node word the indicator compares at row `r` of slab `k`: node `2000 k + r`, whatever the edge. -/
theorem k1_node_word_apply (k : Fin k1_t1_loop.trips) (r : Fin 2000) (e : Fin 3200) :
    broadcastTo S2000x3200
        (addi (broadcast S2000x1 (Scalar.muli (Scalar.addi 0#32 (Scalar.muli (Scf.iv 0#32 1#32 k) 1#32)) 2000#32))
          (iota Kind.tc S2000x1 32 [0] iota_S2000x1_d0_w32))
        broadcasts_S2000x1_S2000x3200 (ix2 r e)
      = BitVec.ofNat 32 (2000 * k.val + r.val) := by
  refine (broadcastTo_apply _ _ (ix2 r e) (ix2 r (0 : Fin 1)) ?_).trans ?_
  · intro a
    match a with
    | ⟨0, _⟩ => rfl
    | ⟨1, _⟩ => rfl
  · show IntOp.addi _ (iota Kind.tc S2000x1 32 [0] iota_S2000x1_d0_w32 (ix2 r (0 : Fin 1))) = _
    rw [iota_single_apply, k1_slab_base_word k]
    show BitVec.ofNat 32 (2000 * k.val) + BitVec.ofNat 32 r.val = _
    rw [← BitVec.ofNat_add]

/-- The edge word it compares at edge `e`: the edge's node index, whatever the row. -/
theorem k1_edge_word_apply (v3 : Vec Ideal S1x3200 .i32) (r : Fin 2000) (e : Fin 3200) :
    broadcastTo S2000x3200 v3 broadcasts_S1x3200_S2000x3200 (ix2 r e) = v3 (ix2 (0 : Fin 1) e) := by
  refine broadcastTo_apply _ _ (ix2 r e) (ix2 (0 : Fin 1) e) ?_
  intro a
  match a with
  | ⟨0, _⟩ => rfl
  | ⟨1, _⟩ => rfl

/-- The slab's payload at row `r`, column `q`: what was loaded there plus the block's rows whose node is `2000 k + r`. -/
theorem k1_pay2_apply (v3 : Vec Ideal S1x3200 .i32) (v5 : Vec Ideal S3200x32 .bf16) (k : Fin k1_t1_loop.trips)
    (v26 : Vec Ideal S2000x32 .f32) (r : Fin 2000) (q : Fin 32) :
    k1_pay2 (F := Ideal) v3 v5 k v26 (ix2 r q)
      = v26 (ix2 r q) + ∑ e : Fin 3200, if v3 (ix2 (0 : Fin 1) e) = BitVec.ofNat 32 (2000 * k.val + r.val) then v5 (ix2 e q) else 0 := by
  unfold k1_pay2
  simp only [shapeCast_self]
  refine congrArg (v26 (ix2 r q) + ·) ?_
  refine (k1_matmul_slab_apply _ _ r q).trans ?_
  refine Finset.sum_congr rfl fun e _ => ?_
  refine (k1_indicator_mul _ _ _).trans ?_
  rw [k1_node_word_apply, k1_edge_word_apply]

/-! ## The loop's slabs, one after another -/

/-- The loop makes twenty-five trips. -/
theorem k1_trips_eq : k1_t1_loop.trips = 25 := by decide +kernel

/-- Trip `k` stores, at rows `2000 k …`, the slab's payload of what it loads from those same rows. -/
theorem tripL_k1_t1_eq (𝒱 : Variants) (c : Dev nD) (bd : Option 𝒱.V) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (v3 : Vec Ideal S1x3200 .i32) (v5 : Vec Ideal S3200x32 .bf16) (k : Fin k1_t1_loop.trips) (f : BufTy.Contents (Elt Ideal) arg5.view.ty) :
    tripL_k1_t1 (F := Ideal) 𝒱 c bd i arg1 harg1 arg2 harg2 arg3 harg3 arg4 harg4 arg5 harg5 v3 v5 k f
      = [⟨Rect.unit (s := S50000x32) (k1_off1 k) S2000x32.size (k1_off1_inb k),
          k1_pay2 v3 v5 k (View.readAt (Elt Ideal) arg5.view (Rect.unit (s := S50000x32) (k1_off1 k) S2000x32.size (k1_off1_inb k)).toLoadRect f)⟩] := by
  unfold tripL_k1_t1 trip_k1_t1; rfl

/-- After `n` trips over contents `G`: the rows below `2000 n` hold what `G` held plus the block's contribution, the others what `G` held. -/
theorem k1_acc_after_trips (𝒱 : Variants) (c : Dev nD) (bd : Option 𝒱.V) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (v3 : Vec Ideal S1x3200 .i32) (v5 : Vec Ideal S3200x32 .bf16) (G : BufTy.Contents (Elt Ideal) arg5.view.ty) (n : ℕ) (hn : n ≤ k1_t1_loop.trips)
    (p : Fin 50000) (q : Fin 32) :
    arg5.view.read (Elt Ideal) (arg5.view.writes (Elt Ideal) G (pb_k1_t1 (F := Ideal) 𝒱 c bd i arg1 harg1 arg2 harg2 arg3 harg3 arg4 harg4 arg5 harg5 v3 v5 G n)) (ix2 p q)
      = if p.val < 2000 * n then arg5.view.read (Elt Ideal) G (ix2 p q) + contrib v3 v5 (ix2 p q)
        else arg5.view.read (Elt Ideal) G (ix2 p q) := by
  induction n generalizing p q with
  | zero => rw [if_neg (by omega)]; rfl
  | succ n ih =>
    have hlt : n < k1_t1_loop.trips := hn
    have h25 : n < 25 := lt_of_lt_of_le hlt k1_t1_abs.2.1
    have e0 : k1_off1 ⟨n, hlt⟩ 0 = 2000 * n := by rw [k1_off1_eq]; rfl
    have e1 : k1_off1 ⟨n, hlt⟩ 1 = 0 := by rw [k1_off1_eq]; rfl
    rw [(pb_k1_t1_succ (F := Ideal) 𝒱 c bd i arg1 harg1 arg2 harg2 arg3 harg3 arg4 harg4 arg5 harg5 v3 v5 G ⟨n, hlt⟩), tripL_k1_t1_eq]
    dsimp only [List.singleton_append]
    have ihP := ih (Nat.le_of_lt hlt)
    generalize pb_k1_t1 (F := Ideal) 𝒱 c bd i arg1 harg1 arg2 harg2 arg3 harg3 arg4 harg4 arg5 harg5 v3 v5 G n = P at ihP ⊢
    by_cases hin : 2000 * n ≤ p.val ∧ p.val < 2000 * n + 2000
    · obtain ⟨hlo, hhi⟩ := hin
      have hy : ix2 p q = (Rect.unit (s := S50000x32) (k1_off1 ⟨n, hlt⟩) S2000x32.size (k1_off1_inb ⟨n, hlt⟩)).emb (ix2 (⟨p.val - 2000 * n, by omega⟩ : Fin 2000) q) :=
        funext fun a => Fin.ext (by
          match a with
          | ⟨0, _⟩ => show p.val = k1_off1 ⟨n, hlt⟩ 0 + 1 * (p.val - 2000 * n); rw [e0]; omega
          | ⟨1, _⟩ => show q.val = k1_off1 ⟨n, hlt⟩ 1 + 1 * q.val; rw [e1]; omega)
      rw [if_pos (by omega)]
      refine (congrArg (arg5.view.read (Elt Ideal) _) hy).trans ?_
      refine (View.read_writes_cons_emb arg5.view G _ _ P _).trans ?_
      refine (k1_pay2_apply v3 v5 ⟨n, hlt⟩ _ _ q).trans ?_
      rw [View.readAt_apply, show (Rect.unit (s := S50000x32) (k1_off1 ⟨n, hlt⟩) S2000x32.size (k1_off1_inb ⟨n, hlt⟩)).toLoadRect.idx (ix2 (⟨p.val - 2000 * n, by omega⟩ : Fin 2000) q) = ix2 p q from hy.symm,
        ihP p q, if_neg (by omega)]
      refine congrArg (_ + ·) ?_
      unfold contrib
      refine Finset.sum_congr rfl fun e _ => ?_
      show (if v3 (ix2 (0 : Fin 1) e) = BitVec.ofNat 32 (2000 * n + (p.val - 2000 * n)) then v5 (ix2 e q) else 0)
        = if v3 (ix2 (0 : Fin 1) e) = BitVec.ofNat 32 p.val then v5 (ix2 e q) else 0
      rw [show 2000 * n + (p.val - 2000 * n) = p.val by omega]
    · have hnm : ix2 p q ∉ Finset.univ.map (Rect.unit (s := S50000x32) (k1_off1 ⟨n, hlt⟩) S2000x32.size (k1_off1_inb ⟨n, hlt⟩)).emb := by
        rw [Rect.map_emb_univ, Rect.mem_set_unit]
        intro h
        have h0 := h 0
        rw [e0] at h0
        exact hin ⟨h0.1, h0.2⟩
      rw [View.writes_cons]
      refine (View.read_slice_write_of_not_mem _ _ _ Finset.univ hnm).trans ?_
      rw [ihP p q]
      by_cases hp : p.val < 2000 * n
      · rw [if_pos hp, if_pos (by omega)]
      · rw [if_neg hp, if_neg (by omega)]

/-- After the whole loop over contents `G` every row holds what `G` held plus the block's contribution. -/
theorem k1_acc_after_loop (𝒱 : Variants) (c : Dev nD) (bd : Option 𝒱.V) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole)
    (v3 : Vec Ideal S1x3200 .i32) (v5 : Vec Ideal S3200x32 .bf16) (G : BufTy.Contents (Elt Ideal) arg5.view.ty) (n : ℕ) (hn : n = 25) :
    arg5.view.read (Elt Ideal) (arg5.view.writes (Elt Ideal) G (pb_k1_t1 (F := Ideal) 𝒱 c bd i arg1 harg1 arg2 harg2 arg3 harg3 arg4 harg4 arg5 harg5 v3 v5 G n))
      = fun j => arg5.view.read (Elt Ideal) G j + contrib v3 v5 j := by
  subst hn
  funext j
  obtain ⟨p, q, rfl⟩ : ∃ (p : Fin 50000) (q : Fin 32), j = ix2 p q := ⟨j 0, j 1, eq_ix2 j⟩
  rw [k1_acc_after_trips 𝒱 c bd i arg1 harg1 arg2 harg2 arg3 harg3 arg4 harg4 arg5 harg5 v3 v5 G 25 (le_of_eq k1_trips_eq.symm) p q, if_pos (by have := p.isLt; omega)]

/-! ## Whole-buffer loads and stores -/

theorem k1_zeros_idx2 : (![0, 0] : Fin 2 → ℕ) = fun _ => 0 := by funext a; fin_cases a <;> rfl

/-- A load of a whole memref at given contents reads them. -/
theorem k1_readAt_whole_unread {S : Shape} {e : EltTy} (m : Memref sig .tc .vmem S e) (h : m.IsWhole) (X : S.Idx → Elt Ideal e)
    {off : Fin S.rank → ℕ} (hz : off = fun _ => 0) (inb : ∀ a, off a + S.size a ≤ S.size a) :
    View.readAt (Elt Ideal) m.view (Rect.unit off S.size inb).toLoadRect (h.unread X) = X := by
  rw [View.readAt_eq_ld, h.read_unread, View.ld_unit_zero hz]

/-- One store of a whole buffer leaves its payload. -/
theorem k1_read_whole_store {κ : Kind} {sp : Space} {S : Shape} {e : EltTy} (v : View sig κ sp S e) (f : v.ty.Contents (Elt Ideal))
    {off : Fin S.rank → ℕ} (hz : off = fun _ => 0) (inb : ∀ a, off a + S.size a ≤ S.size a) (w : S.Idx → Elt Ideal e) :
    v.read (Elt Ideal) (v.writes (Elt Ideal) f [(⟨Rect.unit off S.size inb, w⟩ : View.Piece (Elt Ideal) S e)]) = w :=
  (View.read_writes_eq_canon v f _ (fun y => ⟨_, List.mem_singleton_self _, View.mem_set_unit_zero hz inb y⟩)).trans
    (View.canon_unit_zero hz inb w)

/-- The zeroing store's payload is zero everywhere. -/
theorem k1_pay1_apply (j : S50000x32.Idx) : k1_pay1 (F := Ideal) j = 0 := by
  unfold k1_pay1
  simp only [shapeCast_self]
  exact Ideal.ofBits_zero_f32

/-- The result's payload at row `p`, column `q`: the accumulator plus the bias of the column, clipped below at zero. -/
theorem k1_pay3_apply (v11 : Vec Ideal S50000x32 .f32) (v12 : Vec Ideal S1x32 .f32) (p : Fin 50000) (q : Fin 32) :
    k1_pay3 (F := Ideal) v11 v12 (ix2 p q) = max (v11 (ix2 p q) + v12 (ix2 (0 : Fin 1) q)) 0 := by
  unfold k1_pay3
  simp only [shapeCast_self]
  show max (v11 (ix2 p q) + broadcastTo S50000x32 v12 broadcasts_S1x32_S50000x32 (ix2 p q)) (Ideal.ofBits .f32 0x00000000#32) = _
  rw [Ideal.ofBits_zero_f32, broadcastTo_apply v12 _ (ix2 p q) (ix2 (0 : Fin 1) q) (by
    intro a
    match a with
    | ⟨0, _⟩ => rfl
    | ⟨1, _⟩ => rfl)]

/-! ## The three cases -/

/-- At the first point the accumulator ends at the block's contribution (it is zeroed first). -/
theorem sout1_A_0_eq (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : cond1_0 i) (hc1 : ¬cond1_1 i) (x0 : Vec Ideal S1x3200 .i32) (x1 : Vec Ideal S3200x32 .bf16) (x2 : Vec Ideal S1x32 .f32) :
    sout1_A_0 (F := Ideal) c i arg1 harg1 arg2 harg2 arg3 harg3 arg4 harg4 arg5 harg5 hc0 hc1 x0 x1 x2 = fun j => contrib x0 x1 j := by
  unfold sout1_A_0
  rw [View.read_writes_of_cover VS1_0 VS1_0.junk arg5.view arg5.view.junk _ (scover1_A_0 c i arg1 harg1 arg2 harg2 arg3 harg3 arg4 harg4 arg5 harg5 hc0 hc1 x0 x1 x2)]
  unfold kernelRun1_A
  dsimp only
  sl_unfold_words
  rw [View.writes_append, k1_readAt_whole_unread arg1 harg1 x0 k1_zeros_idx2, k1_readAt_whole_unread arg2 harg2 x1 k1_zeros_idx2]
  refine (k1_acc_after_loop Variants.none c none i arg1 harg1 arg2 harg2 arg3 harg3 arg4 harg4 arg5 harg5 x0 x1 _ k1_t1_loop.trips k1_trips_eq).trans ?_
  funext j
  rw [k1_read_whole_store arg5.view _ k1_zeros_idx2, k1_pay1_apply, zero_add]

/-- At a middle point the accumulator ends at what it held plus the block's contribution. -/
theorem sout1_B_0_eq (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : ¬cond1_1 i) (x0 : Vec Ideal S1x3200 .i32) (x1 : Vec Ideal S3200x32 .bf16) (x2 : Vec Ideal S1x32 .f32) (xs0 : Vec Ideal S50000x32 .f32) :
    sout1_B_0 (F := Ideal) c i arg1 harg1 arg2 harg2 arg3 harg3 arg4 harg4 arg5 harg5 hc0 hc1 x0 x1 x2 xs0 = fun j => xs0 j + contrib x0 x1 j := by
  unfold sout1_B_0
  rw [View.read_writes_of_cover VS1_0 VS1_0.junk arg5.view (harg5.unread xs0) _ (scover1_B_0 c i arg1 harg1 arg2 harg2 arg3 harg3 arg4 harg4 arg5 harg5 hc0 hc1 x0 x1 x2 xs0)]
  unfold kernelRun1_B
  dsimp only
  sl_unfold_words
  rw [k1_readAt_whole_unread arg1 harg1 x0 k1_zeros_idx2, k1_readAt_whole_unread arg2 harg2 x1 k1_zeros_idx2]
  refine (k1_acc_after_loop Variants.none c none i arg1 harg1 arg2 harg2 arg3 harg3 arg4 harg4 arg5 harg5 x0 x1 _ k1_t1_loop.trips k1_trips_eq).trans ?_
  rw [harg5.read_unread]

/-- At the last point likewise, -/
theorem sout1_C_0_eq (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i) (x0 : Vec Ideal S1x3200 .i32) (x1 : Vec Ideal S3200x32 .bf16) (x2 : Vec Ideal S1x32 .f32) (xs0 : Vec Ideal S50000x32 .f32) :
    sout1_C_0 (F := Ideal) c i arg1 harg1 arg2 harg2 arg3 harg3 arg4 harg4 arg5 harg5 hc0 hc1 x0 x1 x2 xs0 = fun j => xs0 j + contrib x0 x1 j := by
  unfold sout1_C_0
  rw [View.read_writes_of_cover VS1_0 VS1_0.junk arg5.view (harg5.unread xs0) _ (scover1_C_0 c i arg1 harg1 arg2 harg2 arg3 harg3 arg4 harg4 arg5 harg5 hc0 hc1 x0 x1 x2 xs0)]
  unfold kernelRun1_C
  dsimp only
  sl_unfold_words
  rw [k1_readAt_whole_unread arg1 harg1 x0 k1_zeros_idx2, k1_readAt_whole_unread arg2 harg2 x1 k1_zeros_idx2]
  refine (k1_acc_after_loop Variants.none c none i arg1 harg1 arg2 harg2 arg3 harg3 arg4 harg4 arg5 harg5 x0 x1 _ k1_t1_loop.trips k1_trips_eq).trans ?_
  rw [harg5.read_unread]

/-- and the result's block is the accumulator plus the bias, clipped below at zero. -/
theorem out1_C_3_eq (c : Dev nD) (i : grid1.Coords)
    (arg1 : Memref sig .tc .vmem S1x3200 .i32) (harg1 : arg1.IsWhole)
    (arg2 : Memref sig .tc .vmem S3200x32 .bf16) (harg2 : arg2.IsWhole)
    (arg3 : Memref sig .tc .vmem S1x32 .f32) (harg3 : arg3.IsWhole)
    (arg4 : Memref sig .tc .vmem S50000x32 .f32) (harg4 : arg4.IsWhole)
    (arg5 : Memref sig .tc .vmem S50000x32 .f32) (harg5 : arg5.IsWhole) (hc0 : ¬cond1_0 i) (hc1 : cond1_1 i) (x0 : Vec Ideal S1x3200 .i32) (x1 : Vec Ideal S3200x32 .bf16) (x2 : Vec Ideal S1x32 .f32) (xs0 : Vec Ideal S50000x32 .f32) :
    out1_C_3 (F := Ideal) c i arg1 harg1 arg2 harg2 arg3 harg3 arg4 harg4 arg5 harg5 hc0 hc1 x0 x1 x2 xs0
      = fun j => max ((xs0 j + contrib x0 x1 j) + x2 (ix2 (0 : Fin 1) (⟨(j 1).val, (j 1).isLt⟩ : Fin 32))) 0 := by
  unfold out1_C_3
  rw [View.read_writes_eq_canon _ _ _ (cover1_C_3 c i arg1 harg1 arg2 harg2 arg3 harg3 arg4 harg4 arg5 harg5 hc0 hc1 x0 x1 x2 xs0)]
  unfold kernelRun1_C
  dsimp only
  sl_unfold_words
  rw [View.canon_unit_zero k1_zeros_idx2, k1_readAt_whole_unread arg1 harg1 x0 k1_zeros_idx2, k1_readAt_whole_unread arg2 harg2 x1 k1_zeros_idx2,
    k1_readAt_whole_unread arg3 harg3 x2 k1_zeros_idx2, View.readAt_eq_ld, View.ld_unit_zero k1_zeros_idx2,
    k1_acc_after_loop Variants.none c none i arg1 harg1 arg2 harg2 arg3 harg3 arg4 harg4 arg5 harg5 x0 x1 (harg5.unread xs0) _ k1_trips_eq, harg5.read_unread]
  funext j
  obtain ⟨p, q, rfl⟩ : ∃ (p : Fin 50000) (q : Fin 32), j = ix2 p q := ⟨j 0, j 1, eq_ix2 j⟩
  exact k1_pay3_apply _ x2 p q

end Cert.KernelIdeal.Hand

end
-- ==== Proof.Val.R1Value.lean ====
import proofs.«415180_j19327352832016_3_alg».proof.Proof.Val.R1Open
import proofs.«415180_j19327352832016_3_alg».proof.Proof.Val.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # What the second region leaves in its result array -/

/-! The region sums, over its 500 grid points, each point's block of 3200 edges into an accumulator of the result's shape, and
at the last point writes the accumulator plus the bias, clipped below at zero, into the result's one block. Below: a block's
entries are the arrays' entries at block number × 3200 + the position inside; the accumulator after point `n` is the sum of the
contributions of the points up to `n` (induction over the points); the last point's block is the whole result array; and the
sum over 500 blocks of 3200 edges is the sum over the 1,600,000 edges. -/

section
variable (V : (c : Dev nD) → (b : Ref sig .tc) → Buf (Elt Ideal) ((c : Thread nD τ).loc b))

/-- The edges' node indices, the edges' message rows and the bias row, as the region finds them. -/
abbrev nodeIdxArr (c : Dev nD) : S1x1600000.Idx → BitVec 32 := V c main_v2
abbrev msgRowsArr (c : Dev nD) : S1600000x32.Idx → EReal := V c main_v4
abbrev biasRowArr (c : Dev nD) : S1x32.Idx → EReal := V c main_v3

/-- Their blocks at grid point `t`. -/
abbrev nodeIdxBlk (c : Dev nD) (t : Fin cfg1.N) : Vec Ideal S1x3200 .i32 := iblk1 V c 0 t
abbrev msgRowsBlk (c : Dev nD) (t : Fin cfg1.N) : Vec Ideal S3200x32 .bf16 := iblk1 V c 1 t
abbrev biasRowBlk (c : Dev nD) (t : Fin cfg1.N) : Vec Ideal S1x32 .f32 := iblk1 V c 2 t

/-- The block indices at point `t`: the node indices' block is columns block `t`, the message rows' block is rows block `t`,
    the bias row and the result are their one block. -/
theorem index_nodeIdx : ∀ t : Fin cfg1.N, win1_0.index t 0 = 0 ∧ win1_0.index t 1 = t.val :=
  (by decide +kernel : ∀ t : Fin grid1.N, win1_0.index t 0 = 0 ∧ win1_0.index t 1 = t.val)
theorem index_msgRows : ∀ t : Fin cfg1.N, win1_1.index t 0 = t.val ∧ win1_1.index t 1 = 0 :=
  (by decide +kernel : ∀ t : Fin grid1.N, win1_1.index t 0 = t.val ∧ win1_1.index t 1 = 0)
theorem index_biasRow : ∀ t : Fin cfg1.N, win1_2.index t 0 = 0 ∧ win1_2.index t 1 = 0 :=
  (by decide +kernel : ∀ t : Fin grid1.N, win1_2.index t 0 = 0 ∧ win1_2.index t 1 = 0)
theorem index_nodeSums : ∀ t : Fin cfg1.N, win1_3.index t 0 = 0 ∧ win1_3.index t 1 = 0 :=
  (by decide +kernel : ∀ t : Fin grid1.N, win1_3.index t 0 = 0 ∧ win1_3.index t 1 = 0)

/-- Position `e` of point `t`'s block of node indices is edge `t * 3200 + e`'s. -/
theorem nodeIdxBlk_apply (c : Dev nD) (t : Fin cfg1.N) (e : Fin 3200) (e' : Fin 1600000) (he : e'.val = t.val * 3200 + e.val) :
    nodeIdxBlk V c t (ix2 (0 : Fin 1) e) = nodeIdxArr V c (ix2 (0 : Fin 1) e') := by
  unfold nodeIdxBlk nodeIdxArr iblk1
  rw [View.read_apply]
  show V c main_v2 _ = V c main_v2 _
  congr 1
  funext a
  apply Fin.ext
  match a with
  | ⟨0, _⟩ => show win1_0.index t 0 * 1 + 1 * 0 = 0; rw [(index_nodeIdx t).1]
  | ⟨1, _⟩ => show win1_0.index t 1 * 3200 + 1 * e.val = e'.val; rw [(index_nodeIdx t).2, he]; omega

/-- Row `e` of point `t`'s block of message rows is edge `t * 3200 + e`'s row. -/
theorem msgRowsBlk_apply (c : Dev nD) (t : Fin cfg1.N) (e : Fin 3200) (c' : Fin 32) (e' : Fin 1600000) (he : e'.val = t.val * 3200 + e.val) :
    msgRowsBlk V c t (ix2 e c') = msgRowsArr V c (ix2 e' c') := by
  unfold msgRowsBlk msgRowsArr iblk1
  rw [View.read_apply]
  show V c main_v4 _ = V c main_v4 _
  congr 1
  funext a
  apply Fin.ext
  match a with
  | ⟨0, _⟩ => show win1_1.index t 0 * 3200 + 1 * e.val = e'.val; rw [(index_msgRows t).1, he]; omega
  | ⟨1, _⟩ => show win1_1.index t 1 * 32 + 1 * c'.val = c'.val; rw [(index_msgRows t).2]; omega

/-- The bias row's block is the bias row, at every point. -/
theorem biasRowBlk_apply (c : Dev nD) (t : Fin cfg1.N) (c' : Fin 32) :
    biasRowBlk V c t (ix2 (0 : Fin 1) c') = biasRowArr V c (ix2 (0 : Fin 1) c') := by
  unfold biasRowBlk biasRowArr iblk1
  rw [View.read_apply]
  show V c main_v3 _ = V c main_v3 _
  congr 1
  funext a
  apply Fin.ext
  match a with
  | ⟨0, _⟩ => show win1_2.index t 0 * 1 + 1 * 0 = 0; rw [(index_biasRow t).1]
  | ⟨1, _⟩ => show win1_2.index t 1 * 32 + 1 * c'.val = c'.val; rw [(index_biasRow t).2]; omega

/-- What point `s` adds to the accumulator: its block's contribution (zero past the grid). -/
def pointContrib (c : Dev nD) (s : ℕ) (j : S50000x32.Idx) : EReal :=
  if h : s < cfg1.N then contrib (nodeIdxBlk V c ⟨s, h⟩) (msgRowsBlk V c ⟨s, h⟩) j else 0

theorem pointContrib_of_lt (c : Dev nD) (t : Fin cfg1.N) (j : S50000x32.Idx) :
    pointContrib V c t.val j = contrib (nodeIdxBlk V c t) (msgRowsBlk V c t) j := by
  unfold pointContrib; rw [dif_pos t.isLt]

/-- After point `n` the accumulator holds the sum of the contributions of the points up to `n`: the first point leaves its own,
    every later one adds its own to what the point before left. -/
theorem accumulator_eq (c : Dev nD) : ∀ (n : ℕ) (hn : n < cfg1.N),
    (outsAt1 V c n hn).2 = fun j => ∑ s ∈ Finset.range (n + 1), pointContrib V c s j
  | 0, hn => by
    rw [outsAt1_A V c ⟨0, hn⟩ (Nat.zero_mod _) zero_ne_last]
    dsimp only
    refine (sout1_A_0_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) _ _ (iblk1 V c 0 ⟨0, hn⟩) (iblk1 V c 1 ⟨0, hn⟩) (iblk1 V c 2 ⟨0, hn⟩)).trans ?_
    funext j
    rw [Finset.sum_range_one]
    exact (pointContrib_of_lt V c ⟨0, hn⟩ j).symm
  | n + 1, hn => by
    have h0 : ¬ (⟨n + 1, hn⟩ : Fin cfg1.N).val % 500 = 0 := ne0_of_succ n hn
    by_cases h1 : (⟨n + 1, hn⟩ : Fin cfg1.N).val % 500 = 499
    · rw [outsAt1_C V c ⟨n + 1, hn⟩ h0 h1]
      dsimp only
      refine (sout1_C_0_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) _ _ (iblk1 V c 0 ⟨n + 1, hn⟩) (iblk1 V c 1 ⟨n + 1, hn⟩) (iblk1 V c 2 ⟨n + 1, hn⟩) _).trans ?_
      funext j
      show (outsAt1 V c n _).2 j + _ = _
      rw [accumulator_eq c n, Finset.sum_range_succ _ (n + 1)]
      exact congrArg _ (pointContrib_of_lt V c ⟨n + 1, hn⟩ j).symm
    · rw [outsAt1_B V c ⟨n + 1, hn⟩ h0 h1]
      dsimp only
      refine (sout1_B_0_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) _ _ (iblk1 V c 0 ⟨n + 1, hn⟩) (iblk1 V c 1 ⟨n + 1, hn⟩) (iblk1 V c 2 ⟨n + 1, hn⟩) _).trans ?_
      funext j
      show (outsAt1 V c n _).2 j + _ = _
      rw [accumulator_eq c n, Finset.sum_range_succ _ (n + 1)]
      exact congrArg _ (pointContrib_of_lt V c ⟨n + 1, hn⟩ j).symm

/-- What the result array ends holding, in terms of the blocks: the sum of all the points' contributions plus the bias,
    clipped below at zero. -/
def nodeSums (c : Dev nD) : S50000x32.Idx → EReal :=
  fun j => max ((∑ s ∈ Finset.range 500, pointContrib V c s j)
    + biasRowArr V c (ix2 (0 : Fin 1) (⟨(j 1).val, (j 1).isLt⟩ : Fin 32))) 0

/-- The same, as contents of the result array. -/
abbrev nodeSumsBuf (c : Dev nD) : Buf (Elt Ideal) ((c : Thread nD τ).loc main_v5) := nodeSums V c

/-- At the last point the body leaves that in the result's staging buffer: what the point before left in the accumulator, plus
    the last block's contribution, plus the bias, clipped. -/
theorem nodeSums_last (c : Dev nD) (t : Fin cfg1.N) (ht : t.val = 499) :
    (outsAt1 V c t.val t.isLt).1 = nodeSums V c := by
  have h1 : t.val % 500 = 499 := by omega
  have h0 : ¬ t.val % 500 = 0 := by omega
  rw [outsAt1_C V c t h0 h1]
  dsimp only
  refine (out1_C_3_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) _).trans ?_
  funext j
  rw [accumulator_eq V c (t.val - 1) _]
  have e : t.val - 1 + 1 = 499 := by omega
  show max ((∑ s ∈ Finset.range (t.val - 1 + 1), pointContrib V c s j + contrib (nodeIdxBlk V c t) (msgRowsBlk V c t) j)
      + biasRowBlk V c t (ix2 (0 : Fin 1) (⟨(j 1).val, (j 1).isLt⟩ : Fin 32))) 0 = _
  rw [e, ← pointContrib_of_lt V c t j, ht, ← Finset.sum_range_succ (fun s => pointContrib V c s j) 499, biasRowBlk_apply V c t]
  rfl

/-- The one write-back, at the last point, writes it: the result's one block is the whole array. -/
theorem nodeSums_flushed (c : Dev nD) (t : Fin cfg1.N) (hf : (cfg1.win 3).flush t = true) :
    (dat1 V c).flushed 3 t = ((cfg1.win 3).blk t).view.read (Elt Ideal) (nodeSumsBuf V c) := by
  have hN : cfg1.N = 500 := N_1
  have ht : t.val = 499 := by have := (flush1_3 t).mp hf; have := t.isLt; omega
  show (cfg1.win 3).cut (grid1.coords t) ((dat1 V c).after 3 t) = _
  rw [after1_3, nodeSums_last V c t ht]
  have hz' : (fun a => win1_3.index t a * main_v5.ty.shape.size a) = fun _ => 0 := funext fun a => by
    match a with
    | ⟨0, _⟩ => show win1_3.index t 0 * 50000 = 0; rw [(index_nodeSums t).1]
    | ⟨1, _⟩ => show win1_3.index t 1 * 32 = 0; rw [(index_nodeSums t).2]
  exact (Memref.read_access_unit_zero (Elt Ideal) main_v5 hz' (fun a => by rw [congrFun hz' a]; simp) (nodeSumsBuf V c)).symm

/-- So the result array ends holding it: the last point's block covers the array. -/
theorem nodeSums_final (c : Dev nD) : (dat1 V c).arrAt 3 cfg1.N = nodeSumsBuf V c := by
  have hN : cfg1.N = 500 := N_1
  have h499 : 499 < cfg1.N := by rw [hN]; decide
  refine (dat1 V c).arrAt_eq_of_cover 3 (nodeSumsBuf V c) (nodeSums_flushed V c) fun i => ⟨⟨499, h499⟩, (flush1_3 _).mpr rfl, ?_⟩
  show i ∈ ((View.whole main_v5).slice (win1_3.rect ⟨499, h499⟩)).set
  rw [View.set_slice_whole, Rect.mem_set_unit]
  intro a
  have h0 : (i 0 : Nat) < 50000 := (i 0).isLt
  have h1 : (i 1 : Nat) < 32 := (i 1).isLt
  match a with
  | ⟨0, _⟩ =>
    show win1_3.index ⟨499, h499⟩ 0 * 50000 ≤ (i 0 : Nat) ∧ (i 0 : Nat) < win1_3.index ⟨499, h499⟩ 0 * 50000 + 50000
    rw [(index_nodeSums ⟨499, h499⟩).1]; omega
  | ⟨1, _⟩ =>
    show win1_3.index ⟨499, h499⟩ 1 * 32 ≤ (i 1 : Nat) ∧ (i 1 : Nat) < win1_3.index ⟨499, h499⟩ 1 * 32 + 32
    rw [(index_nodeSums ⟨499, h499⟩).2]; omega

end

/-- A sum over `m` consecutive blocks of `n` positions is the sum over the `m * n` positions. -/
theorem sum_range_blocks {β : Type*} [AddCommMonoid β] (n : ℕ) (f : ℕ → β) : ∀ m : ℕ,
    ∑ s ∈ Finset.range m, ∑ e ∈ Finset.range n, f (s * n + e) = ∑ k ∈ Finset.range (m * n), f k
  | 0 => by simp
  | m + 1 => by rw [Finset.sum_range_succ, sum_range_blocks n f m, Nat.succ_mul, Finset.sum_range_add]

/-- What edge number `k` adds to node `i 0` in column `i 1`: its message row's entry if its node index is that node (zero
    otherwise, and past the last edge). -/
def edgeTerm (row : IVec Cert.Spec.SE 32) (M : Fin 1600000 → Fin 32 → EReal) (i : S50000x32.Idx) (k : ℕ) : EReal :=
  if h : k < 1600000 then (if row (ix1 (⟨k, h⟩ : Fin 1600000)) = BitVec.ofNat 32 (i 0).val then M ⟨k, h⟩ ⟨(i 1).val, (i 1).isLt⟩ else 0) else 0

/-- Point `s`'s contribution is the sum of the terms of its 3200 edges, edges `s * 3200` to `s * 3200 + 3199`. -/
theorem pointContrib_eq_edges (V : (c : Dev nD) → (b : Ref sig .tc) → Buf (Elt Ideal) ((c : Thread nD τ).loc b)) (c : Dev nD)
    (row : IVec Cert.Spec.SE 32) (M : Fin 1600000 → Fin 32 → EReal)
    (hrow : ∀ e : Fin 1600000, nodeIdxArr V c (ix2 (0 : Fin 1) e) = row (ix1 e))
    (hmsg : ∀ (e : Fin 1600000) (c' : Fin 32), msgRowsArr V c (ix2 e c') = M e c')
    (i : S50000x32.Idx) (s : ℕ) (hs : s < 500) :
    pointContrib V c s i = ∑ e ∈ Finset.range 3200, edgeTerm row M i (s * 3200 + e) := by
  have hs' : s < cfg1.N := lt_of_lt_of_eq hs (N_1).symm
  refine (pointContrib_of_lt V c ⟨s, hs'⟩ i).trans ?_
  unfold contrib
  rw [← Fin.sum_univ_eq_sum_range (fun e => edgeTerm row M i (s * 3200 + e)) 3200]
  refine Finset.sum_congr rfl fun e _ => ?_
  have hk : s * 3200 + e.val < 1600000 := by have := e.isLt; omega
  rw [nodeIdxBlk_apply V c ⟨s, hs'⟩ e ⟨s * 3200 + e.val, hk⟩ rfl,
    msgRowsBlk_apply V c ⟨s, hs'⟩ e ⟨(i 1).val, (i 1).isLt⟩ ⟨s * 3200 + e.val, hk⟩ rfl, hrow, hmsg]
  unfold edgeTerm
  rw [dif_pos hk]

/-- The second region's result array holds, at node `n` and column `c'`: the sum of the message rows of the edges whose node
    index is `n`, plus the bias, clipped below at zero. -/
theorem out_value (V : (c : Dev nD) → (b : Ref sig .tc) → Buf (Elt Ideal) ((c : Thread nD τ).loc b)) (c : Dev nD)
    (row : IVec Cert.Spec.SE 32) (M : Fin 1600000 → Fin 32 → EReal) (b : Cert.Spec.S32.Idx → EReal)
    (hrow : ∀ e : Fin 1600000, (V c main_v2 : S1x1600000.Idx → BitVec 32) (ix2 (0 : Fin 1) e) = row (ix1 e))
    (hmsg : ∀ (e : Fin 1600000) (c' : Fin 32), (V c main_v4 : S1600000x32.Idx → EReal) (ix2 e c') = M e c')
    (hb : ∀ c' : Fin 32, (V c main_v3 : S1x32.Idx → EReal) (ix2 (0 : Fin 1) c') = b (ix1 c')) :
    (dat1 (F := Ideal) V c).arrAt 3 cfg1.N
      = fun i : S50000x32.Idx =>
          max ((∑ e : Fin 1600000, if row (ix1 e) = BitVec.ofNat 32 (i 0).val then M e ⟨(i 1).val, (i 1).isLt⟩ else 0)
                + b (ix1 ⟨(i 1).val, (i 1).isLt⟩)) 0 := by
  refine (nodeSums_final V c).trans ?_
  funext i
  show nodeSums V c i = _
  unfold nodeSums
  have hbias : biasRowArr V c (ix2 (0 : Fin 1) (⟨(i 1).val, (i 1).isLt⟩ : Fin 32)) = b (ix1 ⟨(i 1).val, (i 1).isLt⟩) := hb _
  have hsum : ∑ s ∈ Finset.range 500, pointContrib V c s i
      = ∑ e : Fin 1600000, if row (ix1 e) = BitVec.ofNat 32 (i 0).val then M e ⟨(i 1).val, (i 1).isLt⟩ else 0 := by
    rw [Finset.sum_congr rfl fun s hs => pointContrib_eq_edges V c row M hrow hmsg i s (Finset.mem_range.mp hs),
      sum_range_blocks 3200 (edgeTerm row M i) 500, Finset.sum_fin_eq_sum_range]
    rfl
  rw [hbias, hsum]

end Cert.KernelIdeal.Hand

end
-- ==== Proof.Val.Glue.lean ====
import proofs.«415180_j19327352832016_3_alg».proof.Proof.KI.Run
import proofs.«415180_j19327352832016_3_alg».proof.Proof.Val.R0Value
import proofs.«415180_j19327352832016_3_alg».proof.Proof.Val.R1Value
import proofs.«415180_j19327352832016_3_alg».proof.Proof.Val.Spec
import Idealize.ShloMosaic.Lib.StableHlo.Run
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The idealized kernel's result as the specification

The host operations before the regions round the table (the identity over the extended reals) and lay the two index
arrays and the bias out as a column, a row and a row; the first region's result array is the message array, which
the second region reads: together the result buffer holds the specification's function of the arguments. -/

open Idealize.ShloMosaic.StableHlo

variable (m : (ℓ : Loc nD τ sig) → Buf (Elt Ideal) ℓ) (ρ : Dev nD → PrngReg)

section
variable (c : Dev nD) (row col : IVec S1600000 32) (w : FVec Ideal S50000x32 .f32) (b : FVec Ideal S32 .f32)
  (h0 : m ((c : Thread nD τ).loc main_arg0) = row) (h1 : m ((c : Thread nD τ).loc main_arg1) = col)
  (h2 : m ((c : Thread nD τ).loc main_arg2) = w) (h3 : m ((c : Thread nD τ).loc main_arg3) = b)
include h0 h1 h2 h3

/-- The table as the first region finds it: the argument, rounded (the identity here). -/
theorem W1_main_v0 : (W1 m ρ c (Proc.devRef .tc main_v0) : S50000x32.Idx → EReal) = w := by
  rw [← h2]
  show StableHlo.after hostOps0 (fun b => m (c, b)) (Proc.devRef .tc main_v0) = _
  after_results; rfl

/-- The column indices as a column. -/
theorem W1_main_v1 : (W1 m ρ c (Proc.devRef .tc main_v1) : S1600000x1.Idx → BitVec 32)
      = shapeCast S1600000x1 col shapeCasts_S1600000_S1600000x1 := by
  rw [← h1]
  show StableHlo.after hostOps0 (fun b => m (c, b)) (Proc.devRef .tc main_v1) = _
  after_results; rfl

/-- The node indices as a row. -/
theorem W1_main_v2 : (W1 m ρ c (Proc.devRef .tc main_v2) : S1x1600000.Idx → BitVec 32)
      = shapeCast S1x1600000 row shapeCasts_S1600000_S1x1600000 := by
  rw [← h0]
  show StableHlo.after hostOps0 (fun b => m (c, b)) (Proc.devRef .tc main_v2) = _
  after_results; rfl

/-- The bias as a row. -/
theorem W1_main_v3 : (W1 m ρ c (Proc.devRef .tc main_v3) : S1x32.Idx → EReal)
      = shapeCast S1x32 b shapeCasts_S32_S1x32 := by
  rw [← h3]
  show StableHlo.after hostOps0 (fun b => m (c, b)) (Proc.devRef .tc main_v3) = _
  after_results; rfl

/-- The result buffer's final contents are the specification's function of the four arguments. -/
theorem kernel_value_aux :
    (dat1 (F := Ideal) (V2 m ρ) c).arrAt 3 cfg1.N = Cert.Spec.G row col w b := by
  have hmsg := msg_value (V1 m ρ) c col w
    (fun e => by
      show (W1 m ρ c (Proc.devRef .tc main_v1) : S1600000x1.Idx → BitVec 32) (ix2 e (0 : Fin 1)) = _
      rw [W1_main_v1 m ρ c row col w b h0 h1 h2 h3]
      exact shapeCast_apply _ _ _ _ (by
        rw [Shape.rowMajor_val_two, Shape.rowMajor_val_one]
        show e.val = e.val * 1 + 0
        omega))
    (fun n c' => by
      show (W1 m ρ c (Proc.devRef .tc main_v0) : S50000x32.Idx → EReal) (ix2 n c') = _
      rw [W1_main_v0 m ρ c row col w b h0 h1 h2 h3])
  rw [out_value (V2 m ρ) c row (Cert.Spec.msgAt col w) b
    (fun e => by
      show (W2 m ρ c (Proc.devRef .tc main_v2) : S1x1600000.Idx → BitVec 32) (ix2 (0 : Fin 1) e) = _
      rw [W2_of_ne m ρ c main_v2 (by decide), W1_main_v2 m ρ c row col w b h0 h1 h2 h3]
      exact shapeCast_a_1a_apply _ _ _ _)
    (fun e c' => by
      show (W2 m ρ c (Proc.devRef .tc main_v4) : S1600000x32.Idx → EReal) (ix2 e c') = _
      rw [show W2 m ρ c (Proc.devRef .tc main_v4) = (dat0 (F := Ideal) (V1 m ρ) c).arrAt 2 cfg0.N from W2_arr m ρ c 2, hmsg])
    (fun c' => by
      show (W2 m ρ c (Proc.devRef .tc main_v3) : S1x32.Idx → EReal) (ix2 (0 : Fin 1) c') = _
      rw [W2_of_ne m ρ c main_v3 (by decide), W1_main_v3 m ρ c row col w b h0 h1 h2 h3]
      exact shapeCast_a_1a_apply _ _ _ _)]
  rfl

end

/-- THE KERNEL'S VALUE: the result buffer's final contents are the specification's function of the four arguments. -/
theorem kernel_value (c : Dev nD) :
    (dat1 (F := Ideal) (V2 m ρ) c).arrAt 3 cfg1.N
      = Cert.Spec.G (m ((c : Thread nD τ).loc main_arg0)) (m ((c : Thread nD τ).loc main_arg1))
          (m ((c : Thread nD τ).loc main_arg2)) (m ((c : Thread nD τ).loc main_arg3)) :=
  kernel_value_aux m ρ c _ _ _ _ rfl rfl rfl rfl

end Cert.KernelIdeal.Hand

end
-- ==== Proof.Val.RefValue.lean ====
import proofs.«415180_j19327352832016_3_alg».proof.Proof.Val.Spec
import proofs.«415180_j19327352832016_3_alg».proof.Proof.Gen.ReferenceIdeal.Read
import Idealize.ShloMosaic.Lib.ValueIdx
import Idealize.ShloMosaic.PureOps.Ideal.Laws

/-! # The reference's value is the specification

At the ideal instance the reference computes relu(segment_sum(w[col], row) + b). Under the bound "every column word is below
50000" each stage is read at an index: the corrected column word is the column word itself; the gather reads the table's row
that word names (its clamp into the table is the identity); the scatter-add at (n, c) sums the gathered entries (e, c) over the
edges e whose row word, read signed, is n; the bias is added and the result clipped below at zero. Stage by stage this is the
specification's `G`. -/

noncomputable section

namespace Cert.RefValue

open Idealize.ShloMosaic Idealize.ShloMosaic.ValueIdx
open Cert.ReferenceIdeal Cert.ReferenceIdeal.Read

/-! ## Words below 50000 -/

/-- A word below 50000 is not negative read signed. -/
theorem slt_zero_of_lt (x : BitVec 32) (h : x.toNat < 50000) : IntOp.cmpi .slt x 0#32 = 0#1 := by
  have hi : x.toInt = (x.toNat : Int) := BitVec.toInt_eq_toNat_of_lt (by omega)
  have : x.slt 0#32 = false := by
    rw [BitVec.slt, hi]; simp
  show BitVec.ofBool (x.slt 0#32) = 0#1
  rw [this]; rfl

/-- Read signed it is its unsigned value. -/
theorem toInt_toNat_of_lt (x : BitVec 32) (h : x.toNat < 50000) : x.toInt.toNat = x.toNat := by
  have hi : x.toInt = (x.toNat : Int) := BitVec.toInt_eq_toNat_of_lt (by omega)
  rw [hi]; simp

/-- The word of a number below 50000 reads signed as that number. -/
theorem toInt_ofNat_of_lt (n : Nat) (hn : n < 50000) : (BitVec.ofNat 32 n).toInt = (n : Int) := by
  have hn' : (BitVec.ofNat 32 n).toNat = n := by rw [BitVec.toNat_ofNat]; omega
  rw [BitVec.toInt_eq_toNat_of_lt (by omega), hn']

/-- A word reads signed as a number below 50000 exactly when it is that number's word. -/
theorem toInt_eq_iff (x : BitVec 32) (n : Nat) (hn : n < 50000) : x.toInt = (n : Int) ↔ x = BitVec.ofNat 32 n := by
  constructor
  · intro h
    apply BitVec.eq_of_toInt_eq
    rw [h, toInt_ofNat_of_lt n hn]
  · intro h
    subst h
    exact toInt_ofNat_of_lt n hn

/-- A word below 50000 is the word of a number below 50000 exactly when that number is its value. -/
theorem eq_ofNat_iff (x : BitVec 32) (h : x.toNat < 50000) (n : Nat) (hn : n < 50000) : x = BitVec.ofNat 32 n ↔ n = x.toNat := by
  constructor
  · intro hx; subst hx; rw [BitVec.toNat_ofNat]; omega
  · intro hx; subst hx; apply BitVec.eq_of_toNat_eq; rw [BitVec.toNat_ofNat]; omega

/-- A choice on "reads signed as n" is the choice on "is n's word". -/
theorem ite_toInt (x : BitVec 32) (n : Nat) (hn : n < 50000) (a b : EReal) :
    (if x.toInt = (n : Int) then a else b) = if x = BitVec.ofNat 32 n then a else b := by
  by_cases h : x = BitVec.ofNat 32 n
  · rw [if_pos h, if_pos ((toInt_eq_iff x n hn).2 h)]
  · rw [if_neg h, if_neg (fun h' => h ((toInt_eq_iff x n hn).1 h'))]

section Stages

variable [Cert.ReferenceIdeal.Facts]

/-! ## The gather at an index -/

/-- The gather's dimension numbers. -/
abbrev gd : GatherDims S50000x32 S1600000x1 S1600000x32 := gather_S50000x32_S1600000x1_S1600000x32_1_0_n_n_0_1_132

/-- The gather at an index: the table's row at the start index, read signed and clamped into the table. -/
theorem gather_at {α : Type} (x : S50000x32.Idx → α) (idx : IVec S1600000x1 32) (e : Fin 1600000) (c : Fin 32) :
    Host.gather gd x idx (ix2 e c) = x (ix2 ⟨min (idx (ix2 e (0 : Fin 1))).toInt.toNat 49999, by omega⟩ c) := by
  unfold Host.gather
  refine congrArg x ?_
  funext a
  refine Fin.ext ?_
  match a with
  | ⟨0, _⟩ =>
    show gd.start (ix2 e c) idx 0 + gd.batchCoord (ix2 e c) 0 + gd.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 e c) ⟨List.idxOf (0 : Fin 2) gd.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gd.start (ix2 e c) idx 1 + gd.batchCoord (ix2 e c) 1 + gd.offCoord (ix2 e c) 1 = _
    rw [GatherDims.batchCoord_eq_zero _ _ _ List.not_mem_nil]
    unfold GatherDims.start
    rw [dif_neg (show (1 : Fin 2) ∉ gd.startIndexMap from by decide)]
    have hk : (1 : Fin 2) ∈ gd.sKept := by decide
    unfold GatherDims.offCoord
    rw [dif_pos hk]
    have key : ∀ (k : Nat) (hk : k < gd.offsetDims.length), k = 0 → (ix2 e c (gd.offsetDims[k]'hk)).val = c.val := by
      intro k hk h0; subst h0; rfl
    rw [key _ _ (by decide), Nat.zero_add]

/-! ## Where an update lands -/

/-- The scatter's dimension numbers. -/
abbrev sd : ScatterDims S50000x32 S1600000x1 S1600000x32 := scatter_S50000x32_S1600000x1_S1600000x32_1_0_0_1

/-- On the scattered axis the window starts at the index word, read signed. -/
theorem scatter_start0 (idx : IVec S1600000x1 32) (e : Fin 1600000) (c : Fin 32) :
    sd.start (ix2 e c) idx 0 = (idx (ix2 e (0 : Fin 1))).toInt := by
  unfold ScatterDims.start
  rw [dif_pos (show (0 : Fin 2) ∈ sd.scatterDimsToOperandDims from List.mem_singleton.mpr rfl)]
  have hsi : sd.siIdx (ix2 e c) ⟨List.idxOf (0 : Fin 2) sd.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window axis it starts at zero. -/
theorem scatter_start1 (idx : IVec S1600000x1 32) (e : Fin 1600000) (c : Fin 32) :
    sd.start (ix2 e c) idx 1 = 0 := by
  unfold ScatterDims.start
  rw [dif_neg (show (1 : Fin 2) ∉ sd.scatterDimsToOperandDims from by decide)]

/-- The scattered axis is inserted: no window coordinate. -/
theorem scatter_window0 (e : Fin 1600000) (c : Fin 32) : sd.window (ix2 e c) 0 = 0 := by
  unfold ScatterDims.window
  rw [dif_neg (show (0 : Fin 2) ∉ sd.sKept from by decide)]

/-- The window axis carries the update's column. -/
theorem scatter_window1 (e : Fin 1600000) (c : Fin 32) : sd.window (ix2 e c) 1 = c.val := by
  unfold ScatterDims.window
  rw [dif_pos (show (1 : Fin 2) ∈ sd.sKept from by decide)]
  have key : ∀ (k : Nat) (hk : k < sd.updateWindowDims.length), k = 0 → (ix2 e c (sd.updateWindowDims[k]'hk)).val = c.val := by
    intro k hk h0; subst h0; rfl
  exact key _ _ (by decide)

/-- Where update (e, c) lands: row the index word read signed, column c, when that row is in the table; nowhere otherwise. -/
theorem resultIdx_at (idx : IVec S1600000x1 32) (e : Fin 1600000) (c : Fin 32) :
    sd.resultIdx? (ix2 e c) idx
      = if h : 0 ≤ (idx (ix2 e (0 : Fin 1))).toInt ∧ (idx (ix2 e (0 : Fin 1))).toInt < 50000 then
          some (ix2 ⟨(idx (ix2 e (0 : Fin 1))).toInt.toNat, by omega⟩ c)
        else none := by
  have hiff : (∀ a : Fin 2, 0 ≤ sd.start (ix2 e c) idx a + (sd.window (ix2 e c) a : Int) ∧
        sd.start (ix2 e c) idx a + (sd.window (ix2 e c) a : Int) < (S50000x32.size a : Int))
      ↔ (0 ≤ (idx (ix2 e (0 : Fin 1))).toInt ∧ (idx (ix2 e (0 : Fin 1))).toInt < 50000) := by
    rw [Fin.forall_fin_two, scatter_start0, scatter_start1, scatter_window0, scatter_window1]
    have h0 : (S50000x32.size 0 : Int) = 50000 := rfl
    have h1 : (S50000x32.size 1 : Int) = 32 := rfl
    rw [h0, h1]
    have := c.isLt
    omega
  unfold ScatterDims.resultIdx?
  by_cases h : 0 ≤ (idx (ix2 e (0 : Fin 1))).toInt ∧ (idx (ix2 e (0 : Fin 1))).toInt < 50000
  · rw [dif_pos h, dif_pos (hiff.2 h)]
    refine congrArg some ?_
    funext a
    refine Fin.ext ?_
    match a with
    | ⟨0, _⟩ =>
      show (sd.start (ix2 e c) idx 0 + (sd.window (ix2 e c) 0 : Int)).toNat = _
      rw [scatter_start0, scatter_window0]
      simp
    | ⟨1, _⟩ =>
      show (sd.start (ix2 e c) idx 1 + (sd.window (ix2 e c) 1 : Int)).toNat = _
      rw [scatter_start1, scatter_window1]
      simp
  · rw [dif_neg h, dif_neg (fun h' => h (hiff.1 h'))]

/-! ## The scatter's sum at an index -/

/-- The updates landing on (n, c) are the (e, c) whose index word reads signed as n. -/
theorem scatter_sum (idx : IVec S1600000x1 32) (upd : S1600000x32.Idx → EReal) (n : Fin 50000) (c : Fin 32)
    [DecidablePred fun j : S1600000x32.Idx => sd.resultIdx? j idx = some (ix2 n c)] :
    ∑ j ∈ Finset.univ.filter (fun j : S1600000x32.Idx => sd.resultIdx? j idx = some (ix2 n c)), upd j
      = ∑ e : Fin 1600000, if (idx (ix2 e (0 : Fin 1))).toInt = (n.val : Int) then upd (ix2 e c) else 0 := by
  rw [Finset.sum_filter, sum_idx2]
  refine Finset.sum_congr rfl fun e _ => ?_
  have hiff : ∀ c' : Fin 32, sd.resultIdx? (ix2 e c') idx = some (ix2 n c)
      ↔ ((idx (ix2 e (0 : Fin 1))).toInt = (n.val : Int) ∧ c' = c) := by
    intro c'
    rw [resultIdx_at]
    by_cases h : 0 ≤ (idx (ix2 e (0 : Fin 1))).toInt ∧ (idx (ix2 e (0 : Fin 1))).toInt < 50000
    · rw [dif_pos h]
      constructor
      · intro hs
        have hs' := Option.some.inj hs
        have h0 := congrArg (fun i : S50000x32.Idx => (i 0).val) hs'
        have h1 := congrArg (fun i : S50000x32.Idx => (i 1).val) hs'
        simp only at h0 h1
        refine ⟨?_, Fin.ext h1⟩
        have : ((idx (ix2 e (0 : Fin 1))).toInt.toNat : Int) = (n.val : Int) := congrArg Nat.cast h0
        omega
      · rintro ⟨hn, rfl⟩
        refine congrArg some ?_
        refine congrArg (fun m => ix2 m c') (Fin.ext ?_)
        show (idx (ix2 e (0 : Fin 1))).toInt.toNat = n.val
        omega
    · rw [dif_neg h]
      constructor
      · intro hs; exact absurd hs (by simp)
      · rintro ⟨hn, _⟩
        have := n.isLt
        exact absurd ⟨by omega, by omega⟩ h
  by_cases h : (idx (ix2 e (0 : Fin 1))).toInt = (n.val : Int)
  · rw [if_pos h, Finset.sum_eq_single c]
    · rw [if_pos ((hiff c).2 ⟨h, rfl⟩)]
    · intro c' _ hne
      rw [if_neg]; intro h'; exact hne ((hiff c').1 h').2
    · intro hnot; exact absurd (Finset.mem_univ _) hnot
  · rw [if_neg h]
    refine Finset.sum_eq_zero fun c' _ => ?_
    rw [if_neg]; intro h'; exact h ((hiff c').1 h').1

/-! ## The stages at an index -/

/-- Under the bound the corrected column word is the column word. -/
theorem v4_at (col : IVec S1600000 32) (e : Fin 1600000) (h : (col (ix1 e)).toNat < 50000) :
    val_main_v4 (F := Ideal) col (ix1 e) = col (ix1 e) := by
  rw [val_main_v4_apply, val_main_v1_apply, val_main_v0_apply, val_main_c_apply, slt_zero_of_lt _ h, select_zero]

/-- Its column form reads the same word. -/
theorem v5_at (col : IVec S1600000 32) (e : Fin 1600000) (h : (col (ix1 e)).toNat < 50000) :
    val_main_v5 (F := Ideal) col (ix2 e (0 : Fin 1)) = col (ix1 e) := by
  rw [val_main_v5_apply]
  have hi : idx_main_v5 (ix2 e (0 : Fin 1)) = ix1 e := by
    funext a; match a with | ⟨0, _⟩ => rfl
  rw [hi, v4_at col e h]

/-- The row words' column form reads the row word. -/
theorem v8_at (row : IVec S1600000 32) (e : Fin 1600000) :
    val_main_v8 (F := Ideal) row (ix2 e (0 : Fin 1)) = row (ix1 e) := by
  rw [val_main_v8_apply]
  have hi : idx_main_v8 (ix2 e (0 : Fin 1)) = ix1 e := by
    funext a; match a with | ⟨0, _⟩ => rfl
  rw [hi]

/-- The gathered entry: the table at the row the column word names. -/
theorem v6_at (col : IVec S1600000 32) (w : FVec Ideal S50000x32 .f32) (e : Fin 1600000) (c : Fin 32)
    (h : (col (ix1 e)).toNat < 50000) :
    val_main_v6 (F := Ideal) col w (ix2 e c) = w (ix2 ⟨(col (ix1 e)).toNat, h⟩ c) := by
  unfold val_main_v6
  refine (gather_at w _ e c).trans ?_
  refine congrArg (fun m => w (ix2 m c)) (Fin.ext ?_)
  show min (val_main_v5 (F := Ideal) col (ix2 e (0 : Fin 1))).toInt.toNat 49999 = (col (ix1 e)).toNat
  rw [v5_at col e h, toInt_toNat_of_lt _ h]
  omega

/-- What the specification has edge e carry is that entry. -/
theorem msgAt_eq (col : IVec S1600000 32) (w : FVec Ideal S50000x32 .f32) (e : Fin 1600000) (c : Fin 32)
    (h : (col (ix1 e)).toNat < 50000) :
    Cert.Spec.msgAt col w e c = w (ix2 ⟨(col (ix1 e)).toNat, h⟩ c) := by
  unfold Cert.Spec.msgAt
  rw [Finset.sum_eq_single (⟨(col (ix1 e)).toNat, h⟩ : Fin 50000)]
  · rw [if_pos ((eq_ofNat_iff _ h _ h).2 rfl)]
  · intro n _ hne
    rw [if_neg]
    intro heq
    exact hne (Fin.ext ((eq_ofNat_iff _ h n.val n.isLt).1 heq))
  · intro hnot; exact absurd (Finset.mem_univ _) hnot

/-- The host scatter-add at (n, c): the operand there plus the updates (e, c) whose index word reads signed as n. -/
theorem scatterAdd_at (x : FVec Ideal S50000x32 .f32) (idx : IVec S1600000x1 32) (upd : FVec Ideal S1600000x32 .f32)
    (n : Fin 50000) (c : Fin 32) :
    Host.scatterAdd sd x idx upd (ix2 n c)
      = x (ix2 n c) + ∑ e : Fin 1600000, if (idx (ix2 e (0 : Fin 1))).toInt = (n.val : Int) then upd (ix2 e c) else 0 := by
  unfold Host.scatterAdd
  rw [Ideal.hostScatterAdd_def]
  unfold Ideal.hostScatterAdd
  rw [scatter_sum]

/-- The scattered sum at (n, c) is what the specification has node n collect in column c. -/
theorem v9_at (row col : IVec S1600000 32) (w : FVec Ideal S50000x32 .f32)
    (hcol : ∀ e : Fin 1600000, (col (ix1 e)).toNat < 50000) (n : Fin 50000) (c : Fin 32) :
    val_main_v9 (F := Ideal) row col w (ix2 n c) = Cert.Spec.aggAt row col w n c := by
  unfold val_main_v9
  rw [scatterAdd_at, val_main_v7_apply, val_main_cst_apply, Ideal.ofBits_def, Ideal.ofBits_zero_f32, zero_add]
  unfold Cert.Spec.aggAt
  refine Finset.sum_congr rfl fun e _ => ?_
  rw [v8_at, ite_toInt _ n.val n.isLt, v6_at col w e c (hcol e), msgAt_eq col w e c (hcol e)]

end Stages

/-! ## The assembly -/

/-- Under the bound on the column words, the reference's result is the specification's. -/
theorem ref_eq_spec [Cert.ReferenceIdeal.Facts] (row col : IVec Cert.ReferenceIdeal.S1600000 32) (w : FVec Ideal Cert.ReferenceIdeal.S50000x32 .f32)
    (b : FVec Ideal Cert.ReferenceIdeal.S32 .f32)
    (hcol : ∀ e : Fin 1600000, (col (ix1 e)).toNat < 50000) :
    Cert.ReferenceIdeal.Read.val_main_v13 (F := Ideal) row col w b = Cert.Spec.G row col w b := by
  funext i
  obtain ⟨n, c, rfl⟩ : ∃ (n : Fin 50000) (c : Fin 32), i = ix2 n c := ⟨i 0, i 1, eq_ix2 i⟩
  rw [val_main_v13_apply, val_main_v12_apply, val_main_call0_v0_apply, val_main_call0_cst_apply,
    val_main_v11_apply, val_main_v10_apply, v9_at row col w hcol n c,
    Ideal.maximumf_def, Ideal.addf_def, Ideal.ofBits_def, Ideal.ofBits_zero_f32]
  have hi : idx_main_v10 (idx_main_v11 (ix2 n c)) = ix1 c := by
    funext a; match a with | ⟨0, _⟩ => rfl
  rw [hi]
  rfl

end Cert.RefValue
end
-- ==== Proof.Val.PreCol.lean ====
import proofs.«415180_j19327352832016_3_alg».proof.Pre_finite_inputs
import Idealize.ShloMosaic.Lib.ReduceAll
import Idealize.ShloMosaic.Lib.StableHlo.Predicate
import Idealize.ShloMosaic.Lib.ValueIdx

/-! # The precondition's column range, read back

The precondition ends in the conjunction, over all 1,600,000 entries, of `0 ≤ col e` and `col e < 50000`, both
comparisons signed. When the precondition holds, each word of `col` is therefore, read unsigned, below 50000: a word
whose signed value is nonnegative has its top bit clear, so its signed and unsigned values agree. -/

namespace Cert.PreCol
open Idealize.ShloMosaic Idealize.ShloMosaic.ValueIdx

/-- A 32-bit word whose signed value lies in [0, 50000) has unsigned value below 50000: the signed value of a word is
    its unsigned value, less 2³² when the top bit is set, and the second case would be negative. -/
theorem toNat_lt_of_signed (a : BitVec 32) (h0 : (0#32 : BitVec 32).toInt ≤ a.toInt)
    (h1 : a.toInt < (50000#32 : BitVec 32).toInt) : a.toNat < 50000 := by
  have e0 : (0#32 : BitVec 32).toInt = 0 := by decide
  have e1 : (50000#32 : BitVec 32).toInt = 50000 := by decide
  rw [e0] at h0
  rw [e1] at h1
  rw [BitVec.toInt_eq_toNat_cond] at h0 h1
  have := a.isLt
  split at h0 <;> omega

/-- Under the precondition every column word is, as an unsigned number, below 50000. The predicate's value at its one
    index is a conjunction whose last conjunct is the conjunction over all entries `e` of
    `(0 ≤ col e) ∧ (col e < 50000)` (signed); a conjunction of bits that is 1 has every conjunct 1, and the two
    comparisons at `e`, against constants broadcast to every entry, give the signed range of `col e`. -/
theorem col_lt_of_pre {F : FTy → Type} [FloatOps F] [Cert.Pre_finite_inputs.Facts]
    (row col : IVec Cert.Pre_finite_inputs.S1600000 32) (w : FVec F Cert.Pre_finite_inputs.S50000x32 .f32) (b : FVec F Cert.Pre_finite_inputs.S32 .f32)
    (h : Cert.Pre_finite_inputs.fn (F := F) row col w b = fun _ => 1#1) :
    ∀ e : Fin 1600000, (col (ix1 e)).toNat < 50000 := by
  intro e
  -- the scalar shape has one index
  haveI : Subsingleton Cert.Pre_finite_inputs.S_.Idx := ⟨fun a b => funext fun d => d.elim0⟩
  -- the predicate's value at its one index, written out
  have h0 := congrFun h ix0
  unfold Cert.Pre_finite_inputs.fn at h0
  dsimp only at h0
  -- the last conjunct: the conjunction over all entries
  have hall := (IntOp.andi_eq_one.1 h0).2
  -- its entry at `e`
  have he := Host.reduce_andi_all _ _ _ _ _ hall (ix1 e)
  -- the two signed comparisons at `e`
  obtain ⟨hge, hlt⟩ := IntOp.andi_eq_one.1 he
  exact toNat_lt_of_signed (col (ix1 e)) (IntOp.cmpi_sge.1 hge) (IntOp.cmpi_slt.1 hlt)

end Cert.PreCol
-- ==== Proof.lean ====
/- The certificate of a graph message-passing kernel against its reference, over the extended reals.

   Both programs take edge index arrays `row`, `col` (1,600,000 words), a table of 50,000 rows of 32 and a bias of 32, and
   return, for node `n` and column `c`, `max (Σ_{e : row e = n} table[col e, c] + bias c) 0`. The reference gathers and
   scatter-adds on the host. The kernel has no gather: its first region builds, per block of 3,200 edges, the rows
   `table[col e, ·]` as 25 products of an indicator matrix `[col e = k·2000 + n']` with a slab of 2,000 table rows; its second
   region accumulates, over 500 grid points, products of the indicator `[n = row e]` with the block's message rows into an
   accumulator it zeroes at the first point, and stores the accumulator plus the bias, clipped at zero, at the last point.
   Over the extended reals an indicator times a value is the value or zero, so both sums are the specification's
   (`Cert.Spec.G`); sums of extended reals commute and associate, so no finiteness is used. The two programs differ where a
   column index is outside `[0, 50000)` (the reference clamps, the indicator is zero): the precondition keeps the column
   indices in range, and the proof uses it on the reference's side only.

   The frames of the two kernel programs (every execution terminates, nothing faults, the arguments end unchanged) are
   proved once, for any float instance, region by region: each region's body is run through its counted loop by the loop's
   invariant, the second region's accumulator is carried between grid points by the region invariant, and the program is
   the chain host operations, first region, second region. -/
import proofs.«415180_j19327352832016_3_alg».proof.Defs
import proofs.«415180_j19327352832016_3_alg».proof.Proof.Gen.Kernel
import proofs.«415180_j19327352832016_3_alg».proof.Proof.Gen.KernelIdeal
import proofs.«415180_j19327352832016_3_alg».proof.Proof.Gen.ReferenceIdeal
import proofs.«415180_j19327352832016_3_alg».proof.Proof.Gen.Pre_finite_inputs
import proofs.«415180_j19327352832016_3_alg».proof.Proof.Gen.ReferenceIdeal.Run
import proofs.«415180_j19327352832016_3_alg».proof.Proof.Gen.ReferenceIdeal.Read
import proofs.«415180_j19327352832016_3_alg».proof.Proof.K.Run
import proofs.«415180_j19327352832016_3_alg».proof.Proof.KI.Run
import proofs.«415180_j19327352832016_3_alg».proof.Proof.Val.Glue
import proofs.«415180_j19327352832016_3_alg».proof.Proof.Val.RefValue
import proofs.«415180_j19327352832016_3_alg».proof.Proof.Val.PreCol
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every column index in range, the idealized kernel and the reference
    both end with the specification's function of the arguments in their result buffers. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v13_eq _ _ _ _).trans ?_
    rw [(hagree c).1, (hagree c).2.1, (hagree c).2.2.1, (hagree c).2.2.2]
    exact Cert.RefValue.ref_eq_spec _ _ _ _ (Cert.PreCol.col_lt_of_pre _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
